-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x3 : Shape := ⟨3, ![128, 512, 3]⟩
abbrev S256x512 : Shape := ⟨2, ![256, 512]⟩
abbrev S256 : Shape := ⟨1, ![256]⟩
abbrev S1x256 : Shape := ⟨2, ![1, 256]⟩
abbrev S_ : Shape := ⟨0, ![]⟩

class Facts : Prop where
  bcast_S_S128x512x3 : S_.BroadcastsInDim S128x512x3 (![] : Fin 0 → Fin S128x512x3.rank)
  reducesTo_S128x512x3_S_d0_1_2 : S128x512x3.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  main_v18

def fn {F : FTy → Type} [FloatOps F] (main_arg0 : FVec F S128x512x3 .f32) (main_arg1 : FVec F S256x512 .f32) (main_arg2 : FVec F S256 .f32) (main_arg3 : FVec F S1x256 .f32) : IVec S_ 1 :=
  let main_v0 : FVec F S128x512x3 .f32 := Host.absf main_arg0
  let main_cst : FVec F S_ .f32 := constant S_ .f32 0x7F800000#32
  let main_v1 : FVec F S128x512x3 .f32 := broadcastInDim S128x512x3 ![] bcast_S_S128x512x3 main_cst
  let main_v2 : IVec S128x512x3 1 := cmpf .olt main_v0 main_v1
  let main_c : IVec S_ 1 := constantI S_ 1 1#1
  let main_v3 : IVec S_ 1 := (fun x v => Host.reduce IntOp.andi x v reducesTo_S128x512x3_S_d0_1_2 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S1x256 .f32 := Host.absf main_arg3
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_v13 main_v16
-- ==== Kernel.lean ====
abbrev S128x512x3 : Shape := ⟨3, ![128, 512, 3]⟩
abbrev S256x512 : Shape := ⟨2, ![256, 512]⟩
abbrev S256 : Shape := ⟨1, ![256]⟩
abbrev S1x256 : Shape := ⟨2, ![1, 256]⟩
abbrev S128x3x512 : Shape := ⟨3, ![128, 3, 512]⟩
abbrev S512x256 : Shape := ⟨2, ![512, 256]⟩
abbrev S256x1 : Shape := ⟨2, ![256, 1]⟩
abbrev S128x1 : Shape := ⟨2, ![128, 1]⟩
abbrev S16x512x3 : Shape := ⟨3, ![16, 512, 3]⟩
abbrev S16x3x512 : Shape := ⟨3, ![16, 3, 512]⟩
abbrev S16x1 : Shape := ⟨2, ![16, 1]⟩
abbrev S16x1x512 : Shape := ⟨3, ![16, 1, 512]⟩
abbrev S1x512x3 : Shape := ⟨3, ![1, 512, 3]⟩
abbrev S512x3 : Shape := ⟨2, ![512, 3]⟩
abbrev S1x3x512 : Shape := ⟨3, ![1, 3, 512]⟩
abbrev S3x512 : Shape := ⟨2, ![3, 512]⟩
abbrev S512x512 : Shape := ⟨2, ![512, 512]⟩
abbrev S1x512 : Shape := ⟨2, ![1, 512]⟩
abbrev S512 : Shape := ⟨1, ![512]⟩
abbrev S512x1 : Shape := ⟨2, ![512, 1]⟩
abbrev S1x1x512 : Shape := ⟨3, ![1, 1, 512]⟩
abbrev S16x512 : Shape := ⟨2, ![16, 512]⟩
abbrev S16x256 : Shape := ⟨2, ![16, 256]⟩

abbrev nBuf : Space → Nat
  | .hbm => 8
  | .vmem => 10
  | .smem => 0
  | _ => 0

abbrev bufTy : (tb : Table) → Fin (tcTables nBuf tb) → BufTy
  | .hbm, ⟨0, _⟩ => ⟨S128x512x3, .f32⟩
  | .hbm, ⟨1, _⟩ => ⟨S256x512, .f32⟩
  | .hbm, ⟨2, _⟩ => ⟨S256, .f32⟩
  | .hbm, ⟨3, _⟩ => ⟨S1x256, .f32⟩
  | .hbm, ⟨4, _⟩ => ⟨S128x3x512, .f32⟩
  | .hbm, ⟨5, _⟩ => ⟨S512x256, .f32⟩
  | .hbm, ⟨6, _⟩ => ⟨S256x1, .f32⟩
  | .hbm, ⟨7, _⟩ => ⟨S128x1, .f32⟩
  | .local _ .vmem, ⟨0, _⟩ => ⟨S16x512x3, .f32⟩
  | .local _ .vmem, ⟨1, _⟩ => ⟨S16x512x3, .f32⟩
  | .local _ .vmem, ⟨2, _⟩ => ⟨S16x3x512, .f32⟩
  | .local _ .vmem, ⟨3, _⟩ => ⟨S16x3x512, .f32⟩
  | .local _ .vmem, ⟨4, _⟩ => ⟨S512x256, .f32⟩
  | .local _ .vmem, ⟨5, _⟩ => ⟨S256, .f32⟩
  | .local _ .vmem, ⟨6, _⟩ => ⟨S256x1, .f32⟩
  | .local _ .vmem, ⟨7, _⟩ => ⟨S16x1, .f32⟩
  | .local _ .vmem, ⟨8, _⟩ => ⟨S16x1, .f32⟩
  | .local _ .vmem, ⟨9, _⟩ => ⟨S16x1x512, .f32⟩
  | _, _ => ⟨S128x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_off1 (k0_t1 : Fin k0_t1_loop.trips) : Fin 3 → Nat :=
  let c0_i32 : BitVec 32 := 0#32
  let c1_i32 : BitVec 32 := 1#32
  let arg8 : BitVec 32 := Scf.iv c0_i32 c1_i32 k0_t1
  let v21 : Index := Scalar.indexCast arg8
  let c0_12 : Index := 0#32
  let c0_13 : Index := 0#32
  ![v21.toNat, 0, 0]
def k0_off2 (k0_t1 : Fin k0_t1_loop.trips) : Fin 3 → Nat :=
  let c0_i32 : BitVec 32 := 0#32
  let c1_i32 : BitVec 32 := 1#32
  let arg8 : BitVec 32 := Scf.iv c0_i32 c1_i32 k0_t1
  let v24 : Index := Scalar.indexCast arg8
  let c0_14 : Index := 0#32
  let c0_15 : Index := 0#32
  ![v24.toNat, 0, 0]
def k0_off3 (k0_t1 : Fin k0_t1_loop.trips) : Fin 3 → Nat :=
  let c0_i32 : BitVec 32 := 0#32
  let c1_i32 : BitVec 32 := 1#32
  let arg8 : BitVec 32 := Scf.iv c0_i32 c1_i32 k0_t1
  let v105 : Index := Scalar.indexCast arg8
  let c0_35 : Index := 0#32
  let c0_36 : Index := 0#32
  ![v105.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S128x512x3_S128x3x512_0_2_1 : S128x512x3.Transposes [0, 2, 1] S128x3x512
  transposes_S256x512_S512x256_1_0 : S256x512.Transposes [1, 0] S512x256
  transposes_S1x256_S256x1_1_0 : S1x256.Transposes [1, 0] S256x1
  h_S1x512x3 : 0 < S1x512x3.numel
  shapeCasts_S1x512x3_S512x3 : S1x512x3.ShapeCasts S512x3
  h_S1x3x512 : 0 < S1x3x512.numel
  shapeCasts_S1x3x512_S3x512 : S1x3x512.ShapeCasts S3x512
  slices_S3x512_o0_0_S1x512 : S3x512.Slices ![0, 0] S1x512
  shapeCasts_S1x512_S512 : S1x512.ShapeCasts S512
  shapeCasts_S512_S1x512 : S512.ShapeCasts S1x512
  slices_S512x3_o0_0_S512x1 : S512x3.Slices ![0, 0] S512x1
  broadcasts_S1x512_S512x512 : S1x512.Broadcasts S512x512
  broadcasts_S512x1_S512x512 : S512x1.Broadcasts S512x512
  slices_S3x512_o1_0_S1x512 : S3x512.Slices ![1, 0] S1x512
  slices_S512x3_o0_1_S512x1 : S512x3.Slices ![0, 1] S512x1
  slices_S3x512_o2_0_S1x512 : S3x512.Slices ![2, 0] S1x512
  slices_S512x3_o0_2_S512x1 : S512x3.Slices ![0, 2] S512x1
  iota_S512x512_d0_w32 : S512x512.Iotas .tc 32 [0]
  iota_S512x512_d1_w32 : S512x512.Iotas .tc 32 [1]
  reduces_S512x512_S512 : S512x512.Reduces [1] S512
  h_S1x1x512 : 0 < S1x1x512.numel
  shapeCasts_S1x1x512_S1x512 : S1x1x512.ShapeCasts S1x512
  shapeCasts_S1x512_S1x1x512 : S1x512.ShapeCasts S1x1x512
  inb_S16x1x512_S16x1x512_0_0_0 : ∀ a, (![0, 0, 0] : Fin 3 → Nat) a + S16x1x512.size a ≤ S16x1x512.size a
  h_S16x1x512 : 0 < S16x1x512.numel
  shapeCasts_S16x1x512_S16x512 : S16x1x512.ShapeCasts S16x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S1x256 : S256.ShapeCasts S1x256
  broadcasts_S1x256_S16x256 : S1x256.Broadcasts S16x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S16x1_S16x1_0_0 : ∀ a, (![0, 0] : Fin 2 → Nat) a + S16x1.size a ≤ S16x1.size a
  h_S16x1 : 0 < S16x1.numel
  dot_S16x512_S512x256_S16x256_1_0_0_1_n_n_wf : DotDims.WF S16x512 S512x256 S16x256 [1] [0] [0] [1] [] []
  dot_S16x256_S256x1_S16x1_1_0_0_1_n_n_wf : DotDims.WF S16x256 S256x1 S16x1 [1] [0] [0] [1] [] []
  hrank0 : 0 < grid0.rank
  k0_t1_ok : k0_t1_loop.OK
  k0_off1_inb : ∀ k0_t1 : Fin k0_t1_loop.trips, ∀ a, (k0_off1 k0_t1) a + S1x512x3.size a ≤ S16x512x3.size a
  k0_off2_inb : ∀ k0_t1 : Fin k0_t1_loop.trips, ∀ a, (k0_off2 k0_t1) a + S1x3x512.size a ≤ S16x3x512.size a
  k0_off3_inb : ∀ k0_t1 : Fin k0_t1_loop.trips, ∀ a, (k0_off3 k0_t1) a + S1x1x512.size a ≤ S16x1x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x3.size a ≤ S128x512x3.size a
  hwx0_0 : ∀ i : grid0.Coords, EltTy.bits .f32 = 32 ∨ (Rect.block (s := S128x512x3) S16x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x3x512.size a ≤ S128x3x512.size a
  hwx0_1 : ∀ i : grid0.Coords, EltTy.bits .f32 = 32 ∨ (Rect.block (s := S128x3x512) S16x3x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x1.size a ≤ S128x1.size a
  hwx0_5 : ∀ i : grid0.Coords, EltTy.bits .f32 = 32 ∨ (Rect.block (s := S128x1) S16x1.size (cc0_transform_5 i) (hinb0_5 i)).WholeWords (EltTy.packing .f32)

variable [Facts₀]

def dot_S16x512_S512x256_S16x256_1_0_0_1_n_n : DotDims S16x512 S512x256 S16x256 where
  lhsContracting := [1]
  rhsContracting := [0]
  lhsNonContracting := [0]
  rhsNonContracting := [1]
  lhsBatch := []
  rhsBatch := []
  wf := dot_S16x512_S512x256_S16x256_1_0_0_1_n_n_wf
def dot_S16x256_S256x1_S16x1_1_0_0_1_n_n : DotDims S16x256 S256x1 S16x1 where
  lhsContracting := [1]
  rhsContracting := [0]
  lhsNonContracting := [0]
  rhsNonContracting := [1]
  lhsBatch := []
  rhsBatch := []
  wf := dot_S16x256_S256x1_S16x1_1_0_0_1_n_n_wf

abbrev win0_0 : Pipeline.Window sig grid0 :=
  Pipeline.Window.ofSpec (Memref.whole main_arg0) S16x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S16x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x512x3 : Shape := ⟨3, ![128, 512, 3]⟩
abbrev S256x512 : Shape := ⟨2, ![256, 512]⟩
abbrev S256 : Shape := ⟨1, ![256]⟩
abbrev S1x256 : Shape := ⟨2, ![1, 256]⟩
abbrev S128x1x512x3 : Shape := ⟨4, ![128, 1, 512, 3]⟩
abbrev S128x512x1x3 : Shape := ⟨4, ![128, 512, 1, 3]⟩
abbrev S128x512x512x3 : Shape := ⟨4, ![128, 512, 512, 3]⟩
abbrev S_ : Shape := ⟨0, ![]⟩
abbrev S128x512x512 : Shape := ⟨3, ![128, 512, 512]⟩
abbrev S512x512 : Shape := ⟨2, ![512, 512]⟩
abbrev S1x512x512 : Shape := ⟨3, ![1, 512, 512]⟩
abbrev S128x512 : Shape := ⟨2, ![128, 512]⟩
abbrev S512x256 : Shape := ⟨2, ![512, 256]⟩
abbrev S128x256 : Shape := ⟨2, ![128, 256]⟩
abbrev S256x1 : Shape := ⟨2, ![256, 1]⟩
abbrev S128x1 : Shape := ⟨2, ![128, 1]⟩

abbrev nBuf : Space → Nat
  | .hbm => 87
  | .vmem => 0
  | .smem => 0
  | _ => 0

abbrev bufTy : (tb : Table) → Fin (tcTables nBuf tb) → BufTy
  | .hbm, ⟨0, _⟩ => ⟨S128x512x3, .f32⟩
  | .hbm, ⟨1, _⟩ => ⟨S256x512, .f32⟩
  | .hbm, ⟨2, _⟩ => ⟨S256, .f32⟩
  | .hbm, ⟨3, _⟩ => ⟨S1x256, .f32⟩
  | .hbm, ⟨4, _⟩ => ⟨S128x1x512x3, .f32⟩
  | .hbm, ⟨5, _⟩ => ⟨S128x512x1x3, .f32⟩
  | .hbm, ⟨6, _⟩ => ⟨S128x512x512x3, .f32⟩
  | .hbm, ⟨7, _⟩ => ⟨S128x512x512x3, .f32⟩
  | .hbm, ⟨8, _⟩ => ⟨S128x512x512x3, .f32⟩
  | .hbm, ⟨9, _⟩ => ⟨S_, .f32⟩
  | .hbm, ⟨10, _⟩ => ⟨S128x512x512x3, .f32⟩
  | .hbm, ⟨11, _⟩ => ⟨S128x512x512x3, .f32⟩
  | .hbm, ⟨12, _⟩ => ⟨S128x512x512x3, .f32⟩
  | .hbm, ⟨13, _⟩ => ⟨S_, .f32⟩
  | .hbm, ⟨14, _⟩ => ⟨S128x512x512x3, .f32⟩
  | .hbm, ⟨15, _⟩ => ⟨S128x512x512x3, .f32⟩
  | .hbm, ⟨16, _⟩ => ⟨S128x512x512x3, .f32⟩
  | .hbm, ⟨17, _⟩ => ⟨S128x512x512x3, .f32⟩
  | .hbm, ⟨18, _⟩ => ⟨S_, .f32⟩
  | .hbm, ⟨19, _⟩ => ⟨S128x512x512, .f32⟩
  | .hbm, ⟨20, _⟩ => ⟨S_, .f32⟩
  | .hbm, ⟨21, _⟩ => ⟨S128x512x512, .f32⟩
  | .hbm, ⟨22, _⟩ => ⟨S128x512x512, .i1⟩
  | .hbm, ⟨23, _⟩ => ⟨S_, .f32⟩
  | .hbm, ⟨24, _⟩ => ⟨S_, .f32⟩
  | .hbm, ⟨25, _⟩ => ⟨S128x512x512, .f32⟩
  | .hbm, ⟨26, _⟩ => ⟨S128x512x512, .f32⟩
  | .hbm, ⟨27, _⟩ => ⟨S128x512x512, .f32⟩
  | .hbm, ⟨28, _⟩ => ⟨S_, .f32⟩
  | .hbm, ⟨29, _⟩ => ⟨S128x512x512, .f32⟩
  | .hbm, ⟨30, _⟩ => ⟨S128x512x512, .f32⟩
  | .hbm, ⟨31, _⟩ => ⟨S128x512x512, .f32⟩
  | .hbm, ⟨32, _⟩ => ⟨S_, .f32⟩
  | .hbm, ⟨33, _⟩ => ⟨S128x512x512, .f32⟩
  | .hbm, ⟨34, _⟩ => ⟨S128x512x512, .f32⟩
  | .hbm, ⟨35, _⟩ => ⟨S_, .f32⟩
  | .hbm, ⟨36, _⟩ => ⟨S128x512x512, .f32⟩
  | .hbm, ⟨37, _⟩ => ⟨S128x512x512, .f32⟩
  | .hbm, ⟨38, _⟩ => ⟨S_, .f32⟩
  | .hbm, ⟨39, _⟩ => ⟨S128x512x512, .f32⟩
  | .hbm, ⟨40, _⟩ => ⟨S128x512x512, .f32⟩
  | .hbm, ⟨41, _⟩ => ⟨S128x512x512, .f32⟩
  | .hbm, ⟨42, _⟩ => ⟨S_, .f32⟩
  | .hbm, ⟨43, _⟩ => ⟨S128x512x512, .f32⟩
  | .hbm, ⟨44, _⟩ => ⟨S128x512x512, .f32⟩
  | .hbm, ⟨45, _⟩ => ⟨S128x512x512, .f32⟩
  | .hbm, ⟨46, _⟩ => ⟨S512x512, .i32⟩
  | .hbm, ⟨47, _⟩ => ⟨S512x512, .i32⟩
  | .hbm, ⟨48, _⟩ => ⟨S_, .i32⟩
  | .hbm, ⟨49, _⟩ => ⟨S512x512, .i32⟩
  | .hbm, ⟨50, _⟩ => ⟨S512x512, .i32⟩
  | .hbm, ⟨51, _⟩ => ⟨S512x512, .i1⟩
  | .hbm, ⟨52, _⟩ => ⟨S_, .f32⟩
  | .hbm, ⟨53, _⟩ => ⟨S128x512x512, .f32⟩
  | .hbm, ⟨54, _⟩ => ⟨S128x512x512, .i1⟩
  | .hbm, ⟨55, _⟩ => ⟨S512x512, .i1⟩
  | .hbm, ⟨56, _⟩ => ⟨S1x512x512, .i1⟩
  | .hbm, ⟨57, _⟩ => ⟨S128x512x512, .i1⟩
  | .hbm, ⟨58, _⟩ => ⟨S128x512x512, .i1⟩
  | .hbm, ⟨59, _⟩ => ⟨S_, .f32⟩
  | .hbm, ⟨60, _⟩ => ⟨S128x512x512, .f32⟩
  | .hbm, ⟨61, _⟩ => ⟨S128x512x512, .i1⟩
  | .hbm, ⟨62, _⟩ => ⟨S128x512x512, .i1⟩
  | .hbm, ⟨63, _⟩ => ⟨S_, .f32⟩
  | .hbm, ⟨64, _⟩ => ⟨S_, .f32⟩
  | .hbm, ⟨65, _⟩ => ⟨S128x512x512, .f32⟩
  | .hbm, ⟨66, _⟩ => ⟨S128x512x512, .f32⟩
  | .hbm, ⟨67, _⟩ => ⟨S_, .f32⟩
  | .hbm, ⟨68, _⟩ => ⟨S128x512, .f32⟩
  | .hbm, ⟨69, _⟩ => ⟨S512x256, .f32⟩
  | .hbm, ⟨70, _⟩ => ⟨S128x256, .f32⟩
  | .hbm, ⟨71, _⟩ => ⟨S1x256, .f32⟩
  | .hbm, ⟨72, _⟩ => ⟨S128x256, .f32⟩
  | .hbm, ⟨73, _⟩ => ⟨S128x256, .f32⟩
  | .hbm, ⟨74, _⟩ => ⟨S_, .f32⟩
  | .hbm, ⟨75, _⟩ => ⟨S128x256, .f32⟩
  | .hbm, ⟨76, _⟩ => ⟨S128x256, .f32⟩
  | .hbm, ⟨77, _⟩ => ⟨S256x1, .f32⟩
  | .hbm, ⟨78, _⟩ => ⟨S128x1, .f32⟩
  | .hbm, ⟨79, _⟩ => ⟨S128x1, .f32⟩
  | .hbm, ⟨80, _⟩ => ⟨S128x1, .f32⟩
  | .hbm, ⟨81, _⟩ => ⟨S_, .f32⟩
  | .hbm, ⟨82, _⟩ => ⟨S128x1, .f32⟩
  | .hbm, ⟨83, _⟩ => ⟨S128x1, .f32⟩
  | .hbm, ⟨84, _⟩ => ⟨S_, .f32⟩
  | .hbm, ⟨85, _⟩ => ⟨S128x1, .f32⟩
  | .hbm, ⟨86, _⟩ => ⟨S128x1, .f32⟩
  | _, _ => ⟨S128x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_call2_v0 : Ref sig .tc := ⟨.hbm, 64, rfl⟩
abbrev main_call2_v1 : Ref sig .tc := ⟨.hbm, 65, rfl⟩
abbrev main_v44 : Ref sig .tc := ⟨.hbm, 66, rfl⟩
abbrev main_cst_12 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call3_cst : Ref sig .tc := ⟨.hbm, 74, rfl⟩
abbrev main_call3_v0 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_13 : Ref sig .tc := ⟨.hbm, 81, rfl⟩
abbrev main_v56 : Ref sig .tc := ⟨.hbm, 82, rfl⟩
abbrev main_v57 : Ref sig .tc := ⟨.hbm, 83, rfl⟩
abbrev main_cst_14 : Ref sig .tc := ⟨.hbm, 84, rfl⟩
abbrev main_v58 : Ref sig .tc := ⟨.hbm, 85, rfl⟩
abbrev main_v59 : Ref sig .tc := ⟨.hbm, 86, rfl⟩

abbrev nD : Nat := 1
abbrev τ : Topo := Topo.v7x

variable {F : FTy → Type} [FloatOps F]

class Facts₀ : Prop where
  bcast_S128x512x3_S128x1x512x3_0_2_3 : S128x512x3.BroadcastsInDim S128x1x512x3 (![0, 2, 3] : Fin 3 → Fin S128x1x512x3.rank)
  bcast_S128x512x3_S128x512x1x3_0_1_3 : S128x512x3.BroadcastsInDim S128x512x1x3 (![0, 1, 3] : Fin 3 → Fin S128x512x1x3.rank)
  bcast_S128x1x512x3_S128x512x512x3_0_1_2_3 : S128x1x512x3.BroadcastsInDim S128x512x512x3 (![0, 1, 2, 3] : Fin 4 → Fin S128x512x512x3.rank)
  bcast_S128x512x1x3_S128x512x512x3_0_1_2_3 : S128x512x1x3.BroadcastsInDim S128x512x512x3 (![0, 1, 2, 3] : Fin 4 → Fin S128x512x512x3.rank)
  bcast_S_S128x512x512x3 : S_.BroadcastsInDim S128x512x512x3 (![] : Fin 0 → Fin S128x512x512x3.rank)
  reducesTo_S128x512x512x3_S128x512x512_d3 : S128x512x512x3.ReducesTo [3] S128x512x512
  h_S_ : 0 < S_.numel
  bcast_S_S128x512x512 : S_.BroadcastsInDim S128x512x512 (![] : Fin 0 → Fin S128x512x512.rank)
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S1x512x512_S128x512x512_0_1_2 : S1x512x512.BroadcastsInDim S128x512x512 (![0, 1, 2] : Fin 3 → Fin S128x512x512.rank)
  reducesTo_S128x512x512_S128x512_d2 : S128x512x512.ReducesTo [2] S128x512
  transposes_S256x512_S512x256_1_0 : S256x512.Transposes [1, 0] S512x256
  bcast_S256_S1x256_1 : S256.BroadcastsInDim S1x256 (![1] : Fin 1 → Fin S1x256.rank)
  bcast_S1x256_S128x256_0_1 : S1x256.BroadcastsInDim S128x256 (![0, 1] : Fin 2 → Fin S128x256.rank)
  bcast_S_S128x256 : S_.BroadcastsInDim S128x256 (![] : Fin 0 → Fin S128x256.rank)
  transposes_S1x256_S256x1_1_0 : S1x256.Transposes [1, 0] S256x1
  bcast_S_S128x1 : S_.BroadcastsInDim S128x1 (![] : Fin 0 → Fin S128x1.rank)
  dot_S128x512_S512x256_S128x256_1_0_0_1_n_n_wf : DotDims.WF S128x512 S512x256 S128x256 [1] [0] [0] [1] [] []
  dot_S128x256_S256x1_S128x1_1_0_0_1_n_n_wf : DotDims.WF S128x256 S256x1 S128x1 [1] [0] [0] [1] [] []

variable [Facts₀]

def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf
def dot_S128x256_S256x1_S128x1_1_0_0_1_n_n : DotDims S128x256 S256x1 S128x1 where
  lhsContracting := [1]
  rhsContracting := [0]
  lhsNonContracting := [0]
  rhsNonContracting := [1]
  lhsBatch := []
  rhsBatch := []
  wf := dot_S128x256_S256x1_S128x1_1_0_0_1_n_n_wf

class Facts : Prop extends Facts₀ where

variable [Facts]
-- ==== Proof.KernelRows.lean ====
/-
  The scratch after the loop, as one function of the two input blocks.

  Each of the sixteen trips loads one system's positions in both layouts (row k of the block of positions and
  row k of the block of transposed positions), computes that system's 512 features, and stores them as row k
  of the scratch [16, 1, 512]. Nothing is carried from trip to trip and the sixteen rows tile the scratch, so a
  load of the whole scratch after the loop reads, at (k, 0, j), feature j of system k of the block: whatever
  the scratch held before the loop is overwritten everywhere.
-/
import proofs.«402878_j27891517620661_3_alg».proof.Proof.Gen.Kernel.Loops
import Idealize.ShloMosaic.Lib.Pipeline.Value
import Idealize.ShloMosaic.Lib.ValueIdx

set_option maxRecDepth 16384

noncomputable section

namespace Cert.Kernel.Rows

open Cert.Kernel Cert.Kernel.Gen
open Idealize.ShloMosaic Idealize.ShloMosaic.TcCoe Idealize.ShloMosaic.Tactic Idealize.ShloMosaic.ValueIdx
open Idealize.SL Idealize.SL.Sem

variable {F : FTy → Type} [FloatOps F]

/-- The loop makes sixteen trips. -/
theorem trips_eq : k0_t1_loop.trips = 16 := by decide +kernel

/-- The features of system k of a block: the body's arithmetic on row k of the positions x0 and row k of the
    transposed positions x1. -/
def rowOf (x0 : Vec F S16x512x3 .f32) (x1 : Vec F S16x3x512 .f32) (k : Fin k0_t1_loop.trips) : Vec F S1x1x512 .f32 :=
  k0_pay1
    (k0_pay5 (View.ld x0 (Rect.unit (k0_off1 k) S1x512x3.size (k0_off1_inb k))) (View.ld x1 (Rect.unit (k0_off2 k) S1x3x512.size (k0_off2_inb k))))
    (k0_pay6 (View.ld x0 (Rect.unit (k0_off1 k) S1x512x3.size (k0_off1_inb k))) (View.ld x1 (Rect.unit (k0_off2 k) S1x3x512.size (k0_off2_inb k))))
    (k0_pay7 (View.ld x0 (Rect.unit (k0_off1 k) S1x512x3.size (k0_off1_inb k))) (View.ld x1 (Rect.unit (k0_off2 k) S1x3x512.size (k0_off2_inb k))))
    k0_pay8

/-- Trip k stores exactly one piece: row k of the scratch, holding system k's features. -/
theorem tripL_eq (𝒱 : Variants) (c : Dev nD) (bd : Option 𝒱.V) (i : grid0.Coords) (arg1 : Memref sig .tc .vmem S16x512x3 .f32) (harg1 : arg1.IsWhole) (arg2 : Memref sig .tc .vmem S16x3x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S256x1 .f32) (harg5 : arg5.IsWhole) (arg6 : Memref sig .tc .vmem S16x1 .f32) (harg6 : arg6.IsWhole) (arg7 : Memref sig .tc .vmem S16x1x512 .f32) (harg7 : arg7.IsWhole)
    (x0 : Vec F S16x512x3 .f32) (x1 : Vec F S16x3x512 .f32) (k : Fin k0_t1_loop.trips) :
    tripL_k0_t1 (F := F) 𝒱 c bd i arg1 harg1 arg2 harg2 arg3 harg3 arg4 harg4 arg5 harg5 arg6 harg6 arg7 harg7 (harg1.unread x0) (harg2.unread x1) k
      = [⟨Rect.unit (s := S16x1x512) (k0_off3 k) S1x1x512.size (k0_off3_inb k), rowOf x0 x1 k⟩] := by
  unfold tripL_k0_t1
  unfold trip_k0_t1
  dsimp only
  sl_unfold_run_names
  simp only [View.readAt_eq_ld, harg1.read_unread, harg2.read_unread]
  rfl

/-- The row of the scratch an index lies in, as a trip; -/
def rowIx (y : S16x1x512.Idx) : Fin k0_t1_loop.trips := ⟨(y 0).val, by have := (y 0).isLt; rw [trips_eq]; exact this⟩
/-- and its place inside that row. -/
def colIx (y : S16x1x512.Idx) : S1x1x512.Idx := ix3 0 0 ⟨(y 2).val, (y 2).isLt⟩

/-- The scratch after the loop: at (k, 0, j), feature j of system k of the block. -/
def scratchOf (x0 : Vec F S16x512x3 .f32) (x1 : Vec F S16x3x512 .f32) : Vec F S16x1x512 .f32 :=
  fun y => rowOf x0 x1 (rowIx y) (colIx y)

/-- Trip k's payload is the block of `scratchOf` its rectangle names. -/
theorem piece_eq (x0 : Vec F S16x512x3 .f32) (x1 : Vec F S16x3x512 .f32) (k : Fin k0_t1_loop.trips) (x : S1x1x512.Idx) :
    rowOf x0 x1 k x = scratchOf x0 x1 ((Rect.unit (s := S16x1x512) (k0_off3 k) S1x1x512.size (k0_off3_inb k)).emb x) := by
  have hr : rowIx ((Rect.unit (s := S16x1x512) (k0_off3 k) S1x1x512.size (k0_off3_inb k)).emb x) = k := by
    apply Fin.ext
    show (((Rect.unit (s := S16x1x512) (k0_off3 k) S1x1x512.size (k0_off3_inb k)).emb x) 0).val = k.val
    rw [Rect.emb_apply, Rect.off_unit, Rect.stride_unit]
    have e0 : k0_off3 k 0 = k.val := by rw [k0_off3_eq]; rfl
    have h1 : (x 0).val < 1 := (x 0).isLt
    omega
  have hc : colIx ((Rect.unit (s := S16x1x512) (k0_off3 k) S1x1x512.size (k0_off3_inb k)).emb x) = x := by
    funext a
    match a with
    | ⟨0, _⟩ => exact Fin.ext (by have h1 : (x 0).val < 1 := (x 0).isLt; show 0 = (x 0).val; omega)
    | ⟨1, _⟩ => exact Fin.ext (by have h1 : (x 1).val < 1 := (x 1).isLt; show 0 = (x 1).val; omega)
    | ⟨2, _⟩ =>
      apply Fin.ext
      show (((Rect.unit (s := S16x1x512) (k0_off3 k) S1x1x512.size (k0_off3_inb k)).emb x) 2).val = (x 2).val
      rw [Rect.emb_apply, Rect.off_unit, Rect.stride_unit]
      have e2 : k0_off3 k 2 = 0 := by rw [k0_off3_eq]; rfl
      omega
  show _ = rowOf x0 x1 (rowIx _) (colIx _)
  rw [hr, hc]

/-- Every piece the trips before n stored is the block of `scratchOf` its rectangle names. -/
theorem pb_pieces (𝒱 : Variants) (c : Dev nD) (bd : Option 𝒱.V) (i : grid0.Coords) (arg1 : Memref sig .tc .vmem S16x512x3 .f32) (harg1 : arg1.IsWhole) (arg2 : Memref sig .tc .vmem S16x3x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S256x1 .f32) (harg5 : arg5.IsWhole) (arg6 : Memref sig .tc .vmem S16x1 .f32) (harg6 : arg6.IsWhole) (arg7 : Memref sig .tc .vmem S16x1x512 .f32) (harg7 : arg7.IsWhole)
    (x0 : Vec F S16x512x3 .f32) (x1 : Vec F S16x3x512 .f32) :
    ∀ n : ℕ, ∀ p ∈ pb_k0_t1 (F := F) 𝒱 c bd i arg1 harg1 arg2 harg2 arg3 harg3 arg4 harg4 arg5 harg5 arg6 harg6 arg7 harg7 (harg1.unread x0) (harg2.unread x1) n,
      ∀ x : p.1.shape.Idx, p.2 x = scratchOf x0 x1 (p.1.emb x)
  | 0 => by intro p hp; rw [pb_k0_t1.eq_1] at hp; exact absurd hp List.not_mem_nil
  | n + 1 => by
    intro p hp
    rw [pb_k0_t1.eq_2] at hp
    unfold pb_k0_t1Step at hp
    by_cases h : n < k0_t1_loop.trips
    · rw [dif_pos h, tripL_eq, List.singleton_append] at hp
      rcases List.mem_cons.mp hp with rfl | hp'
      · intro x; exact piece_eq x0 x1 ⟨n, h⟩ x
      · exact pb_pieces 𝒱 c bd i arg1 harg1 arg2 harg2 arg3 harg3 arg4 harg4 arg5 harg5 arg6 harg6 arg7 harg7 x0 x1 n p hp'
    · rw [dif_neg h] at hp
      exact pb_pieces 𝒱 c bd i arg1 harg1 arg2 harg2 arg3 harg3 arg4 harg4 arg5 harg5 arg6 harg6 arg7 harg7 x0 x1 n p hp

/-- Row k of the scratch is among the pieces of the trips before n, for every k below n. -/
theorem pb_has_row (𝒱 : Variants) (c : Dev nD) (bd : Option 𝒱.V) (i : grid0.Coords) (arg1 : Memref sig .tc .vmem S16x512x3 .f32) (harg1 : arg1.IsWhole) (arg2 : Memref sig .tc .vmem S16x3x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S256x1 .f32) (harg5 : arg5.IsWhole) (arg6 : Memref sig .tc .vmem S16x1 .f32) (harg6 : arg6.IsWhole) (arg7 : Memref sig .tc .vmem S16x1x512 .f32) (harg7 : arg7.IsWhole)
    (x0 : Vec F S16x512x3 .f32) (x1 : Vec F S16x3x512 .f32) (k : Fin k0_t1_loop.trips) :
    ∀ n : ℕ, k.val < n →
      (⟨Rect.unit (s := S16x1x512) (k0_off3 k) S1x1x512.size (k0_off3_inb k), rowOf x0 x1 k⟩ : View.Piece (Elt F) S16x1x512 .f32)
        ∈ pb_k0_t1 (F := F) 𝒱 c bd i arg1 harg1 arg2 harg2 arg3 harg3 arg4 harg4 arg5 harg5 arg6 harg6 arg7 harg7 (harg1.unread x0) (harg2.unread x1) n
  | 0, h => absurd h (Nat.not_lt_zero _)
  | n + 1, h => by
    rw [pb_k0_t1.eq_2]
    unfold pb_k0_t1Step
    by_cases hn : n < k0_t1_loop.trips
    · rw [dif_pos hn, tripL_eq, List.singleton_append]
      by_cases hk : k.val = n
      · have : k = ⟨n, hn⟩ := Fin.ext hk
        subst this
        exact List.mem_cons_self
      · exact List.mem_cons_of_mem _ (pb_has_row 𝒱 c bd i arg1 harg1 arg2 harg2 arg3 harg3 arg4 harg4 arg5 harg5 arg6 harg6 arg7 harg7 x0 x1 k n (by omega))
    · rw [dif_neg hn]
      exact pb_has_row 𝒱 c bd i arg1 harg1 arg2 harg2 arg3 harg3 arg4 harg4 arg5 harg5 arg6 harg6 arg7 harg7 x0 x1 k n (Nat.lt_of_lt_of_le k.isLt (Nat.le_of_not_lt hn))

/-- The sixteen rows cover the scratch. -/
theorem pb_cover (𝒱 : Variants) (c : Dev nD) (bd : Option 𝒱.V) (i : grid0.Coords) (arg1 : Memref sig .tc .vmem S16x512x3 .f32) (harg1 : arg1.IsWhole) (arg2 : Memref sig .tc .vmem S16x3x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S256x1 .f32) (harg5 : arg5.IsWhole) (arg6 : Memref sig .tc .vmem S16x1 .f32) (harg6 : arg6.IsWhole) (arg7 : Memref sig .tc .vmem S16x1x512 .f32) (harg7 : arg7.IsWhole)
    (x0 : Vec F S16x512x3 .f32) (x1 : Vec F S16x3x512 .f32) (y : S16x1x512.Idx) :
    ∃ p ∈ pb_k0_t1 (F := F) 𝒱 c bd i arg1 harg1 arg2 harg2 arg3 harg3 arg4 harg4 arg5 harg5 arg6 harg6 arg7 harg7 (harg1.unread x0) (harg2.unread x1)
        (Scf.trips k0_t1_loop.lb k0_t1_loop.ub k0_t1_loop.st), y ∈ p.1.set := by
  refine ⟨_, pb_has_row 𝒱 c bd i arg1 harg1 arg2 harg2 arg3 harg3 arg4 harg4 arg5 harg5 arg6 harg6 arg7 harg7 x0 x1 (rowIx y) _ (rowIx y).isLt, ?_⟩
  show y ∈ (Rect.unit (s := S16x1x512) (k0_off3 (rowIx y)) S1x1x512.size (k0_off3_inb (rowIx y))).set
  rw [Rect.mem_set_unit]
  have e0 : k0_off3 (rowIx y) 0 = (y 0).val := by rw [k0_off3_eq]; rfl
  have e1 : k0_off3 (rowIx y) 1 = 0 := by rw [k0_off3_eq]; rfl
  have e2 : k0_off3 (rowIx y) 2 = 0 := by rw [k0_off3_eq]; rfl
  intro a
  match a with
  | ⟨0, _⟩ =>
    show k0_off3 (rowIx y) 0 ≤ (y 0).val ∧ (y 0).val < k0_off3 (rowIx y) 0 + 1
    omega
  | ⟨1, _⟩ =>
    have h1 : (y 1).val < 1 := (y 1).isLt
    show k0_off3 (rowIx y) 1 ≤ (y 1).val ∧ (y 1).val < k0_off3 (rowIx y) 1 + 1
    omega
  | ⟨2, _⟩ =>
    have h2 : (y 2).val < 512 := (y 2).isLt
    show k0_off3 (rowIx y) 2 ≤ (y 2).val ∧ (y 2).val < k0_off3 (rowIx y) 2 + 512
    omega

/-- A load of the whole scratch after the loop reads `scratchOf`, whatever the scratch held before the loop. -/
theorem scratch_after_loop (𝒱 : Variants) (c : Dev nD) (bd : Option 𝒱.V) (i : grid0.Coords) (arg1 : Memref sig .tc .vmem S16x512x3 .f32) (harg1 : arg1.IsWhole) (arg2 : Memref sig .tc .vmem S16x3x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S256x1 .f32) (harg5 : arg5.IsWhole) (arg6 : Memref sig .tc .vmem S16x1 .f32) (harg6 : arg6.IsWhole) (arg7 : Memref sig .tc .vmem S16x1x512 .f32) (harg7 : arg7.IsWhole)
    (x0 : Vec F S16x512x3 .f32) (x1 : Vec F S16x3x512 .f32) (fs0 : BufTy.Contents (Elt F) arg7.view.ty)
    (inb : ∀ a, (![0, 0, 0] : Fin 3 → Nat) a + S16x1x512.size a ≤ S16x1x512.size a) :
    View.readAt (Elt F) arg7.view (Rect.unit (s := S16x1x512) ![0, 0, 0] S16x1x512.size inb).toLoadRect
      (arg7.view.writes (Elt F) fs0 (pb_k0_t1 (F := F) 𝒱 c bd i arg1 harg1 arg2 harg2 arg3 harg3 arg4 harg4 arg5 harg5 arg6 harg6 arg7 harg7 (harg1.unread x0) (harg2.unread x1)
        (Scf.trips k0_t1_loop.lb k0_t1_loop.ub k0_t1_loop.st)))
      = scratchOf x0 x1 := by
  rw [View.readAt_eq_ld, View.read_writes_eq_canon _ _ _ (pb_cover 𝒱 c bd i arg1 harg1 arg2 harg2 arg3 harg3 arg4 harg4 arg5 harg5 arg6 harg6 arg7 harg7 x0 x1),
    View.ld_unit_zero (funext fun a => by match a with | ⟨0, _⟩ => rfl | ⟨1, _⟩ => rfl | ⟨2, _⟩ => rfl) inb]
  funext y
  exact View.canon_apply_of_pieces (scratchOf x0 x1) _ (pb_pieces 𝒱 c bd i arg1 harg1 arg2 harg2 arg3 harg3 arg4 harg4 arg5 harg5 arg6 harg6 arg7 harg7 x0 x1 _) y (pb_cover 𝒱 c bd i arg1 harg1 arg2 harg2 arg3 harg3 arg4 harg4 arg5 harg5 arg6 harg6 arg7 harg7 x0 x1 y)

end Cert.Kernel.Rows

end
-- ==== Proof.KernelIdealRows.lean ====
/-
  The scratch after the loop, as one function of the two input blocks.

  Each of the sixteen trips loads one system's positions in both layouts (row k of the block of positions and
  row k of the block of transposed positions), computes that system's 512 features, and stores them as row k
  of the scratch [16, 1, 512]. Nothing is carried from trip to trip and the sixteen rows tile the scratch, so a
  load of the whole scratch after the loop reads, at (k, 0, j), feature j of system k of the block: whatever
  the scratch held before the loop is overwritten everywhere.
-/
import proofs.«402878_j27891517620661_3_alg».proof.Proof.Gen.KernelIdeal.Loops
import Idealize.ShloMosaic.Lib.Pipeline.Value
import Idealize.ShloMosaic.Lib.ValueIdx

set_option maxRecDepth 16384

noncomputable section

namespace Cert.KernelIdeal.Rows

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]

/-- The loop makes sixteen trips. -/
theorem trips_eq : k0_t1_loop.trips = 16 := by decide +kernel

/-- The features of system k of a block: the body's arithmetic on row k of the positions x0 and row k of the
    transposed positions x1. -/
def rowOf (x0 : Vec F S16x512x3 .f32) (x1 : Vec F S16x3x512 .f32) (k : Fin k0_t1_loop.trips) : Vec F S1x1x512 .f32 :=
  k0_pay1
    (k0_pay5 (View.ld x0 (Rect.unit (k0_off1 k) S1x512x3.size (k0_off1_inb k))) (View.ld x1 (Rect.unit (k0_off2 k) S1x3x512.size (k0_off2_inb k))))
    (k0_pay6 (View.ld x0 (Rect.unit (k0_off1 k) S1x512x3.size (k0_off1_inb k))) (View.ld x1 (Rect.unit (k0_off2 k) S1x3x512.size (k0_off2_inb k))))
    (k0_pay7 (View.ld x0 (Rect.unit (k0_off1 k) S1x512x3.size (k0_off1_inb k))) (View.ld x1 (Rect.unit (k0_off2 k) S1x3x512.size (k0_off2_inb k))))
    k0_pay8

/-- Trip k stores exactly one piece: row k of the scratch, holding system k's features. -/
theorem tripL_eq (𝒱 : Variants) (c : Dev nD) (bd : Option 𝒱.V) (i : grid0.Coords) (arg1 : Memref sig .tc .vmem S16x512x3 .f32) (harg1 : arg1.IsWhole) (arg2 : Memref sig .tc .vmem S16x3x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S256x1 .f32) (harg5 : arg5.IsWhole) (arg6 : Memref sig .tc .vmem S16x1 .f32) (harg6 : arg6.IsWhole) (arg7 : Memref sig .tc .vmem S16x1x512 .f32) (harg7 : arg7.IsWhole)
    (x0 : Vec F S16x512x3 .f32) (x1 : Vec F S16x3x512 .f32) (k : Fin k0_t1_loop.trips) :
    tripL_k0_t1 (F := F) 𝒱 c bd i arg1 harg1 arg2 harg2 arg3 harg3 arg4 harg4 arg5 harg5 arg6 harg6 arg7 harg7 (harg1.unread x0) (harg2.unread x1) k
      = [⟨Rect.unit (s := S16x1x512) (k0_off3 k) S1x1x512.size (k0_off3_inb k), rowOf x0 x1 k⟩] := by
  unfold tripL_k0_t1
  unfold trip_k0_t1
  dsimp only
  sl_unfold_run_names
  simp only [View.readAt_eq_ld, harg1.read_unread, harg2.read_unread]
  rfl

/-- The row of the scratch an index lies in, as a trip; -/
def rowIx (y : S16x1x512.Idx) : Fin k0_t1_loop.trips := ⟨(y 0).val, by have := (y 0).isLt; rw [trips_eq]; exact this⟩
/-- and its place inside that row. -/
def colIx (y : S16x1x512.Idx) : S1x1x512.Idx := ix3 0 0 ⟨(y 2).val, (y 2).isLt⟩

/-- The scratch after the loop: at (k, 0, j), feature j of system k of the block. -/
def scratchOf (x0 : Vec F S16x512x3 .f32) (x1 : Vec F S16x3x512 .f32) : Vec F S16x1x512 .f32 :=
  fun y => rowOf x0 x1 (rowIx y) (colIx y)

/-- Trip k's payload is the block of `scratchOf` its rectangle names. -/
theorem piece_eq (x0 : Vec F S16x512x3 .f32) (x1 : Vec F S16x3x512 .f32) (k : Fin k0_t1_loop.trips) (x : S1x1x512.Idx) :
    rowOf x0 x1 k x = scratchOf x0 x1 ((Rect.unit (s := S16x1x512) (k0_off3 k) S1x1x512.size (k0_off3_inb k)).emb x) := by
  have hr : rowIx ((Rect.unit (s := S16x1x512) (k0_off3 k) S1x1x512.size (k0_off3_inb k)).emb x) = k := by
    apply Fin.ext
    show (((Rect.unit (s := S16x1x512) (k0_off3 k) S1x1x512.size (k0_off3_inb k)).emb x) 0).val = k.val
    rw [Rect.emb_apply, Rect.off_unit, Rect.stride_unit]
    have e0 : k0_off3 k 0 = k.val := by rw [k0_off3_eq]; rfl
    have h1 : (x 0).val < 1 := (x 0).isLt
    omega
  have hc : colIx ((Rect.unit (s := S16x1x512) (k0_off3 k) S1x1x512.size (k0_off3_inb k)).emb x) = x := by
    funext a
    match a with
    | ⟨0, _⟩ => exact Fin.ext (by have h1 : (x 0).val < 1 := (x 0).isLt; show 0 = (x 0).val; omega)
    | ⟨1, _⟩ => exact Fin.ext (by have h1 : (x 1).val < 1 := (x 1).isLt; show 0 = (x 1).val; omega)
    | ⟨2, _⟩ =>
      apply Fin.ext
      show (((Rect.unit (s := S16x1x512) (k0_off3 k) S1x1x512.size (k0_off3_inb k)).emb x) 2).val = (x 2).val
      rw [Rect.emb_apply, Rect.off_unit, Rect.stride_unit]
      have e2 : k0_off3 k 2 = 0 := by rw [k0_off3_eq]; rfl
      omega
  show _ = rowOf x0 x1 (rowIx _) (colIx _)
  rw [hr, hc]

/-- Every piece the trips before n stored is the block of `scratchOf` its rectangle names. -/
theorem pb_pieces (𝒱 : Variants) (c : Dev nD) (bd : Option 𝒱.V) (i : grid0.Coords) (arg1 : Memref sig .tc .vmem S16x512x3 .f32) (harg1 : arg1.IsWhole) (arg2 : Memref sig .tc .vmem S16x3x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S256x1 .f32) (harg5 : arg5.IsWhole) (arg6 : Memref sig .tc .vmem S16x1 .f32) (harg6 : arg6.IsWhole) (arg7 : Memref sig .tc .vmem S16x1x512 .f32) (harg7 : arg7.IsWhole)
    (x0 : Vec F S16x512x3 .f32) (x1 : Vec F S16x3x512 .f32) :
    ∀ n : ℕ, ∀ p ∈ pb_k0_t1 (F := F) 𝒱 c bd i arg1 harg1 arg2 harg2 arg3 harg3 arg4 harg4 arg5 harg5 arg6 harg6 arg7 harg7 (harg1.unread x0) (harg2.unread x1) n,
      ∀ x : p.1.shape.Idx, p.2 x = scratchOf x0 x1 (p.1.emb x)
  | 0 => by intro p hp; rw [pb_k0_t1.eq_1] at hp; exact absurd hp List.not_mem_nil
  | n + 1 => by
    intro p hp
    rw [pb_k0_t1.eq_2] at hp
    unfold pb_k0_t1Step at hp
    by_cases h : n < k0_t1_loop.trips
    · rw [dif_pos h, tripL_eq, List.singleton_append] at hp
      rcases List.mem_cons.mp hp with rfl | hp'
      · intro x; exact piece_eq x0 x1 ⟨n, h⟩ x
      · exact pb_pieces 𝒱 c bd i arg1 harg1 arg2 harg2 arg3 harg3 arg4 harg4 arg5 harg5 arg6 harg6 arg7 harg7 x0 x1 n p hp'
    · rw [dif_neg h] at hp
      exact pb_pieces 𝒱 c bd i arg1 harg1 arg2 harg2 arg3 harg3 arg4 harg4 arg5 harg5 arg6 harg6 arg7 harg7 x0 x1 n p hp

/-- Row k of the scratch is among the pieces of the trips before n, for every k below n. -/
theorem pb_has_row (𝒱 : Variants) (c : Dev nD) (bd : Option 𝒱.V) (i : grid0.Coords) (arg1 : Memref sig .tc .vmem S16x512x3 .f32) (harg1 : arg1.IsWhole) (arg2 : Memref sig .tc .vmem S16x3x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S256x1 .f32) (harg5 : arg5.IsWhole) (arg6 : Memref sig .tc .vmem S16x1 .f32) (harg6 : arg6.IsWhole) (arg7 : Memref sig .tc .vmem S16x1x512 .f32) (harg7 : arg7.IsWhole)
    (x0 : Vec F S16x512x3 .f32) (x1 : Vec F S16x3x512 .f32) (k : Fin k0_t1_loop.trips) :
    ∀ n : ℕ, k.val < n →
      (⟨Rect.unit (s := S16x1x512) (k0_off3 k) S1x1x512.size (k0_off3_inb k), rowOf x0 x1 k⟩ : View.Piece (Elt F) S16x1x512 .f32)
        ∈ pb_k0_t1 (F := F) 𝒱 c bd i arg1 harg1 arg2 harg2 arg3 harg3 arg4 harg4 arg5 harg5 arg6 harg6 arg7 harg7 (harg1.unread x0) (harg2.unread x1) n
  | 0, h => absurd h (Nat.not_lt_zero _)
  | n + 1, h => by
    rw [pb_k0_t1.eq_2]
    unfold pb_k0_t1Step
    by_cases hn : n < k0_t1_loop.trips
    · rw [dif_pos hn, tripL_eq, List.singleton_append]
      by_cases hk : k.val = n
      · have : k = ⟨n, hn⟩ := Fin.ext hk
        subst this
        exact List.mem_cons_self
      · exact List.mem_cons_of_mem _ (pb_has_row 𝒱 c bd i arg1 harg1 arg2 harg2 arg3 harg3 arg4 harg4 arg5 harg5 arg6 harg6 arg7 harg7 x0 x1 k n (by omega))
    · rw [dif_neg hn]
      exact pb_has_row 𝒱 c bd i arg1 harg1 arg2 harg2 arg3 harg3 arg4 harg4 arg5 harg5 arg6 harg6 arg7 harg7 x0 x1 k n (Nat.lt_of_lt_of_le k.isLt (Nat.le_of_not_lt hn))

/-- The sixteen rows cover the scratch. -/
theorem pb_cover (𝒱 : Variants) (c : Dev nD) (bd : Option 𝒱.V) (i : grid0.Coords) (arg1 : Memref sig .tc .vmem S16x512x3 .f32) (harg1 : arg1.IsWhole) (arg2 : Memref sig .tc .vmem S16x3x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S256x1 .f32) (harg5 : arg5.IsWhole) (arg6 : Memref sig .tc .vmem S16x1 .f32) (harg6 : arg6.IsWhole) (arg7 : Memref sig .tc .vmem S16x1x512 .f32) (harg7 : arg7.IsWhole)
    (x0 : Vec F S16x512x3 .f32) (x1 : Vec F S16x3x512 .f32) (y : S16x1x512.Idx) :
    ∃ p ∈ pb_k0_t1 (F := F) 𝒱 c bd i arg1 harg1 arg2 harg2 arg3 harg3 arg4 harg4 arg5 harg5 arg6 harg6 arg7 harg7 (harg1.unread x0) (harg2.unread x1)
        (Scf.trips k0_t1_loop.lb k0_t1_loop.ub k0_t1_loop.st), y ∈ p.1.set := by
  refine ⟨_, pb_has_row 𝒱 c bd i arg1 harg1 arg2 harg2 arg3 harg3 arg4 harg4 arg5 harg5 arg6 harg6 arg7 harg7 x0 x1 (rowIx y) _ (rowIx y).isLt, ?_⟩
  show y ∈ (Rect.unit (s := S16x1x512) (k0_off3 (rowIx y)) S1x1x512.size (k0_off3_inb (rowIx y))).set
  rw [Rect.mem_set_unit]
  have e0 : k0_off3 (rowIx y) 0 = (y 0).val := by rw [k0_off3_eq]; rfl
  have e1 : k0_off3 (rowIx y) 1 = 0 := by rw [k0_off3_eq]; rfl
  have e2 : k0_off3 (rowIx y) 2 = 0 := by rw [k0_off3_eq]; rfl
  intro a
  match a with
  | ⟨0, _⟩ =>
    show k0_off3 (rowIx y) 0 ≤ (y 0).val ∧ (y 0).val < k0_off3 (rowIx y) 0 + 1
    omega
  | ⟨1, _⟩ =>
    have h1 : (y 1).val < 1 := (y 1).isLt
    show k0_off3 (rowIx y) 1 ≤ (y 1).val ∧ (y 1).val < k0_off3 (rowIx y) 1 + 1
    omega
  | ⟨2, _⟩ =>
    have h2 : (y 2).val < 512 := (y 2).isLt
    show k0_off3 (rowIx y) 2 ≤ (y 2).val ∧ (y 2).val < k0_off3 (rowIx y) 2 + 512
    omega

/-- A load of the whole scratch after the loop reads `scratchOf`, whatever the scratch held before the loop. -/
theorem scratch_after_loop (𝒱 : Variants) (c : Dev nD) (bd : Option 𝒱.V) (i : grid0.Coords) (arg1 : Memref sig .tc .vmem S16x512x3 .f32) (harg1 : arg1.IsWhole) (arg2 : Memref sig .tc .vmem S16x3x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S256x1 .f32) (harg5 : arg5.IsWhole) (arg6 : Memref sig .tc .vmem S16x1 .f32) (harg6 : arg6.IsWhole) (arg7 : Memref sig .tc .vmem S16x1x512 .f32) (harg7 : arg7.IsWhole)
    (x0 : Vec F S16x512x3 .f32) (x1 : Vec F S16x3x512 .f32) (fs0 : BufTy.Contents (Elt F) arg7.view.ty)
    (inb : ∀ a, (![0, 0, 0] : Fin 3 → Nat) a + S16x1x512.size a ≤ S16x1x512.size a) :
    View.readAt (Elt F) arg7.view (Rect.unit (s := S16x1x512) ![0, 0, 0] S16x1x512.size inb).toLoadRect
      (arg7.view.writes (Elt F) fs0 (pb_k0_t1 (F := F) 𝒱 c bd i arg1 harg1 arg2 harg2 arg3 harg3 arg4 harg4 arg5 harg5 arg6 harg6 arg7 harg7 (harg1.unread x0) (harg2.unread x1)
        (Scf.trips k0_t1_loop.lb k0_t1_loop.ub k0_t1_loop.st)))
      = scratchOf x0 x1 := by
  rw [View.readAt_eq_ld, View.read_writes_eq_canon _ _ _ (pb_cover 𝒱 c bd i arg1 harg1 arg2 harg2 arg3 harg3 arg4 harg4 arg5 harg5 arg6 harg6 arg7 harg7 x0 x1),
    View.ld_unit_zero (funext fun a => by match a with | ⟨0, _⟩ => rfl | ⟨1, _⟩ => rfl | ⟨2, _⟩ => rfl) inb]
  funext y
  exact View.canon_apply_of_pieces (scratchOf x0 x1) _ (pb_pieces 𝒱 c bd i arg1 harg1 arg2 harg2 arg3 harg3 arg4 harg4 arg5 harg5 arg6 harg6 arg7 harg7 x0 x1 _) y (pb_cover 𝒱 c bd i arg1 harg1 arg2 harg2 arg3 harg3 arg4 harg4 arg5 harg5 arg6 harg6 arg7 harg7 x0 x1 y)

end Cert.KernelIdeal.Rows

end
-- ==== Proof.Spec.lean ====
/-
  The function both programs compute, on the extended reals, over plain coordinates.

  One system of 512 particles in a periodic box of side 10: for particles i and j the displacement along
  each of the three axes is wrapped to the nearest image, d2 is the sum of the three squared wrapped
  displacements, d its square root (taken of 1 where d2 is not positive, a value the mask then discards),
  and the pair contributes exp(-d2) · (1/2 · (cos(π d / 2.5) + 1)) when d < 2.5, i ≠ j and d2 > 0, and
  zero otherwise. A particle's feature is the sum of its pair terms over j; a system's output is the
  logistic of a two-layer perceptron (one hidden layer with a bias and a maximum with zero) of its 512
  features. Float literals stay the words the programs print; only the zero word is ever evaluated.
-/
import Idealize.ShloMosaic.PureOps.Ideal
import Idealize.ShloMosaic.Lib.ValueIdx

noncomputable section

namespace Cert.Spec

open Idealize.ShloMosaic

/-- The literals, as the words both programs print. -/
abbrev zeroW : EReal := Ideal.ofBits .f32 0x00000000#32
abbrev oneW : EReal := Ideal.ofBits .f32 0x3F800000#32
abbrev negOneW : EReal := Ideal.ofBits .f32 0xBF800000#32
abbrev boxW : EReal := Ideal.ofBits .f32 0x41200000#32
abbrev piW : EReal := Ideal.ofBits .f32 0x40490FDB#32
abbrev cutW : EReal := Ideal.ofBits .f32 0x40200000#32
abbrev halfW : EReal := Ideal.ofBits .f32 0x3F000000#32

/-- The displacement q - p wrapped to the nearest periodic image, squared. -/
def wrapSq (p q : EReal) : EReal :=
  ((q - p) - Ideal.liftRound Ideal.roundHalfEven (Ideal.div (q - p) boxW) * boxW)
    * ((q - p) - Ideal.liftRound Ideal.roundHalfEven (Ideal.div (q - p) boxW) * boxW)

/-- The squared minimum-image distance between a particle at P and one at Q. -/
def dist2 (P Q : Fin 3 → EReal) : EReal := ∑ c : Fin 3, wrapSq (P c) (Q c)

/-- The bit that is set off the diagonal. -/
def offDiag (i j : Fin 512) : BitVec 1 := if i = j then 0#1 else 1#1

/-- The distance the envelope and the cutoff read: the root of d2 where d2 is positive, of 1 elsewhere. -/
def safeDist (d2 : EReal) : EReal := Ideal.sqrt (Scalar.select (Ideal.cmp .ogt d2 zeroW) d2 oneW)

/-- One pair's term: the envelope under the mask (inside the cutoff, off the diagonal, d2 positive). -/
def pairTerm (nd : BitVec 1) (d2 : EReal) : EReal :=
  Scalar.select
    (IntOp.andi (IntOp.andi (Ideal.cmp .olt (safeDist d2) cutW) nd) (Ideal.cmp .ogt d2 zeroW))
    (Ideal.exp (negOneW * d2) * (halfW * (Ideal.cos (Ideal.div (piW * safeDist d2) cutW) + oneW)))
    zeroW

/-- Particle i's feature in a system whose positions are given twice: P by particle then axis, Q by axis
    then particle (the kernel is handed both layouts of the same array). -/
def featRow (P : Fin 512 → Fin 3 → EReal) (Q : Fin 3 → Fin 512 → EReal) (i : Fin 512) : EReal :=
  ∑ j : Fin 512, pairTerm (offDiag i j) (dist2 (fun c => P i c) (fun c => Q c j))

/-- The perceptron on a system's features s: weights Wt (feature, hidden unit), bias b, output weights w2. -/
def mlp (s : Fin 512 → EReal) (Wt : Fin 512 → Fin 256 → EReal) (b : Fin 256 → EReal) (w2 : Fin 256 → EReal) : EReal :=
  Ideal.logistic (∑ n : Fin 256, max ((∑ k : Fin 512, s k * Wt k n) + b n) zeroW * w2 n)

/-- System g's output from the argument arrays x [128, 512, 3], W1 [256, 512], b1 [256], W2 [1, 256]. -/
def outAt (x : (⟨3, ![128, 512, 3]⟩ : Shape).Idx → EReal) (W1 : (⟨2, ![256, 512]⟩ : Shape).Idx → EReal)
    (b1 : (⟨1, ![256]⟩ : Shape).Idx → EReal) (W2 : (⟨2, ![1, 256]⟩ : Shape).Idx → EReal) (g : Fin 128) : EReal :=
  mlp (featRow (fun p c => x (ValueIdx.ix3 g p c)) (fun c p => x (ValueIdx.ix3 g p c)))
    (fun k n => W1 (ValueIdx.ix2 n k)) (fun n => b1 (ValueIdx.ix1 n)) (fun n => W2 (ValueIdx.ix2 0 n))

/-- The whole result array [128, 1]. -/
def out (x : (⟨3, ![128, 512, 3]⟩ : Shape).Idx → EReal) (W1 : (⟨2, ![256, 512]⟩ : Shape).Idx → EReal)
    (b1 : (⟨1, ![256]⟩ : Shape).Idx → EReal) (W2 : (⟨2, ![1, 256]⟩ : Shape).Idx → EReal) :
    (⟨2, ![128, 1]⟩ : Shape).Idx → EReal := fun y => outAt x W1 b1 W2 (y 0)

end Cert.Spec

end
-- ==== Proof.BodyRow.lean ====
/-
  One system's feature row, read entry by entry.

  For each axis the kernel spreads a row of the transposed positions down the rows and a column of the positions
  across the columns, so entry (i, j) of their difference is particle j's coordinate less particle i's; it wraps
  the difference to the nearest image, squares it, and adds the three squares to zero in axis order. Entry by
  entry the masked envelope is then the specification's pair term of that sum under the off-diagonal bit (the row
  and column numbers, as 32-bit words below 512, agree exactly on the diagonal), and the lane reduction is the
  sum over the second particle.
-/
import proofs.«402878_j27891517620661_3_alg».proof.Proof.Spec
import proofs.«402878_j27891517620661_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Body

open Cert.KernelIdeal Cert.KernelIdeal.Gen

/-- A column `[a, 1]` spread over `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Axis `c`'s row of the transposed positions, spread down the rows: entry `(i, j)` is particle `j`'s coordinate `c`. -/
theorem rowSpread_apply (v25 : Vec Ideal S1x3x512 .f32) (o : ℕ) (h : S3x512.Slices ![o, 0] S1x512) (c : Fin 3)
    (hc : c.val = o) (i j : Fin 512) :
    broadcastTo S512x512 (shapeCast S1x512 (shapeCast S512 (extractStridedSlice S1x512 ![o, 0] (k0_pay4 v25) h)
      shapeCasts_S1x512_S512) shapeCasts_S512_S1x512) broadcasts_S1x512_S512x512 (ix2 i j) = v25 (ix3 0 c j) := by
  rw [shapeCast_shapeCast]
  refine (broadcastTo_1b_ab_apply _ _ i j).trans ?_
  refine (slice2_axis0_apply o _ h (0 : Fin 1) j c (by rw [hc]; rfl)).trans ?_
  exact shapeCast_1ab_ab_apply v25 _ c j

/-- Axis `c`'s column of the positions, spread across the columns: entry `(i, j)` is particle `i`'s coordinate `c`. -/
theorem colSpread_apply (v22 : Vec Ideal S1x512x3 .f32) (o : ℕ) (h : S512x3.Slices ![0, o] S512x1) (c : Fin 3)
    (hc : c.val = o) (i j : Fin 512) :
    broadcastTo S512x512 (extractStridedSlice S512x1 ![0, o] (k0_pay3 v22) h) broadcasts_S512x1_S512x512 (ix2 i j)
      = v22 (ix3 0 i c) := by
  refine (broadcastTo_a1_ab_apply _ _ i j).trans ?_
  refine (slice2_axis1_apply o _ h i (0 : Fin 1) c (by rw [hc]; rfl)).trans ?_
  exact shapeCast_1ab_ab_apply v22 _ i c

/-- The first two axes' accumulated squared wrapped displacements at entry `(i, j)`. -/
theorem pay5_apply (v22 : Vec Ideal S1x512x3 .f32) (v25 : Vec Ideal S1x3x512 .f32) (i j : Fin 512) :
    k0_pay5 v22 v25 (ix2 i j)
      = (Cert.Spec.zeroW + Cert.Spec.wrapSq (v22 (ix3 0 i 0)) (v25 (ix3 0 0 j)))
          + Cert.Spec.wrapSq (v22 (ix3 0 i 1)) (v25 (ix3 0 1 j)) := by
  have r0 := rowSpread_apply v25 0 slices_S3x512_o0_0_S1x512 0 rfl i j
  have c0 := colSpread_apply v22 0 slices_S512x3_o0_0_S512x1 0 rfl i j
  have r1 := rowSpread_apply v25 1 slices_S3x512_o1_0_S1x512 1 rfl i j
  have c1 := colSpread_apply v22 1 slices_S512x3_o0_1_S512x1 1 rfl i j
  rw [← r0, ← c0, ← r1, ← c1]
  rfl

/-- The third axis' displacement at entry `(i, j)`. -/
theorem pay6_apply (v22 : Vec Ideal S1x512x3 .f32) (v25 : Vec Ideal S1x3x512 .f32) (i j : Fin 512) :
    k0_pay6 v22 v25 (ix2 i j) = v25 (ix3 0 2 j) - v22 (ix3 0 i 2) := by
  have r2 := rowSpread_apply v25 2 slices_S3x512_o2_0_S1x512 2 rfl i j
  have c2 := colSpread_apply v22 2 slices_S512x3_o0_2_S512x1 2 rfl i j
  rw [← r2, ← c2]
  rfl

/-- The number of box lengths the third axis' displacement is wrapped by, at entry `(i, j)`. -/
theorem pay7_apply (v22 : Vec Ideal S1x512x3 .f32) (v25 : Vec Ideal S1x3x512 .f32) (i j : Fin 512) :
    k0_pay7 v22 v25 (ix2 i j)
      = Ideal.liftRound Ideal.roundHalfEven (Ideal.div (v25 (ix3 0 2 j) - v22 (ix3 0 i 2)) Cert.Spec.boxW) := by
  rw [← pay6_apply v22 v25 i j]
  rfl

/-- The index the lane reduction reads for row `i` and lane `k` is entry `(i, k)`. -/
theorem lift_row (i k : Fin 512) : reduces_S512x512_S512.lift (ix1 i) k = ix2 i k := by
  funext a
  match a with
  | ⟨0, _⟩ => rfl
  | ⟨1, _⟩ => rfl

/-- The row number and the column number, as 32-bit words, are equal exactly on the diagonal, so the
    complemented equality bit is the off-diagonal bit. -/
theorem diag_apply (i j : Fin 512) :
    xori (cmpi .eq (iota .tc S512x512 32 [0] iota_S512x512_d0_w32) (iota .tc S512x512 32 [1] iota_S512x512_d1_w32))
      (constantI S512x512 1 1#1) (ix2 i j) = Cert.Spec.offDiag i j := by
  show IntOp.xori (IntOp.cmpi .eq (iota .tc S512x512 32 [0] iota_S512x512_d0_w32 (ix2 i j))
    (iota .tc S512x512 32 [1] iota_S512x512_d1_w32 (ix2 i j))) 1#1 = _
  rw [iota_single_apply, iota_single_apply]
  show IntOp.xori (IntOp.cmpi .eq (BitVec.ofNat 32 i.val) (BitVec.ofNat 32 j.val)) 1#1 = _
  unfold Cert.Spec.offDiag
  by_cases h : i = j
  · subst h
    rw [if_pos rfl]
    simp [IntOp.xori, IntOp.cmpi]
  · rw [if_neg h]
    have hne : BitVec.ofNat 32 i.val ≠ BitVec.ofNat 32 j.val := by
      intro he
      apply h
      have h2 := congrArg BitVec.toNat he
      rw [BitVec.toNat_ofNat, BitVec.toNat_ofNat, Nat.mod_eq_of_lt (by have := i.isLt; omega),
        Nat.mod_eq_of_lt (by have := j.isLt; omega)] at h2
      exact Fin.ext h2
    have hb : (BitVec.ofNat 32 i.val == BitVec.ofNat 32 j.val) = false := beq_eq_false_iff_ne.mpr hne
    show BitVec.ofBool (BitVec.ofNat 32 i.val == BitVec.ofNat 32 j.val) ^^^ 1#1 = 1#1
    rw [hb]
    rfl

/-- The row payload over any four entry arrays: the squared distance `d2` is the first array plus the square of
    the second less the product of the last two, and lane `i` of the result is the sum over `j` of the pair
    term of `d2` at `(i, j)` under the off-diagonal bit. -/
theorem pay1_apply (v57 v64 v67 v68 : FVec Ideal S512x512 .f32) (i : Fin 512) :
    k0_pay1 v57 v64 v67 v68 (ix3 0 0 i)
      = ∑ j : Fin 512, Cert.Spec.pairTerm (Cert.Spec.offDiag i j)
          (v57 (ix2 i j) + (v64 (ix2 i j) - v67 (ix2 i j) * v68 (ix2 i j))
            * (v64 (ix2 i j) - v67 (ix2 i j) * v68 (ix2 i j))) := by
  unfold k0_pay1
  refine (shapeCast_ab_1ab_apply _ _ 0 0 i).trans ?_
  refine (shapeCast_a_1a_apply _ _ 0 i).trans ?_
  refine (Ideal.multiReduction_add_single _ 0x00000000#32 reduces_S512x512_S512 (.inl rfl) rfl (ix1 i)).trans ?_
  show ∑ j : Fin 512, _ = _
  refine Finset.sum_congr rfl fun j _ => ?_
  rw [lift_row, ← diag_apply i j]
  rfl

/-- The kernel's row payload at lane `i` is the specification's feature of particle `i`: the three wrapped
    squares added to zero in axis order are the sum over the axes. -/
theorem rowPay_apply (v22 : Vec Ideal S1x512x3 .f32) (v25 : Vec Ideal S1x3x512 .f32) (i : Fin 512) :
    k0_pay1 (F := Ideal) (k0_pay5 v22 v25) (k0_pay6 v22 v25) (k0_pay7 v22 v25) k0_pay8 (ix3 0 0 i)
      = Cert.Spec.featRow (fun p c => v22 (ix3 0 p c)) (fun c p => v25 (ix3 0 c p)) i := by
  refine (pay1_apply _ _ _ _ i).trans ?_
  unfold Cert.Spec.featRow
  refine Finset.sum_congr rfl fun j _ => ?_
  congr 1
  rw [pay5_apply, pay6_apply, pay7_apply]
  unfold Cert.Spec.dist2
  have hz : Cert.Spec.zeroW = 0 := Ideal.ofBits_zero_f32
  rw [Fin.sum_univ_three, hz, zero_add]
  rfl

end Cert.KernelIdeal.Body

end
-- ==== Proof.BodyMlp.lean ====
import proofs.«402878_j27891517620661_3_alg».proof.Proof.Spec
import proofs.«402878_j27891517620661_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Body

open Cert.KernelIdeal Cert.KernelIdeal.Gen

/-! ## The first product, [16,512] · [512,256]: its operand indices, coordinate by coordinate -/

theorem lhs_dot_S16x512_S512x256_S16x256_1_0_0_1_n_n_0 (i : S16x256.Idx)
    (q : dot_S16x512_S512x256_S16x256_1_0_0_1_n_n.contr.Idx) :
    (dot_S16x512_S512x256_S16x256_1_0_0_1_n_n.lhsIdx i q 0).val = (i 0).val := by
  unfold DotDims.lhsIdx
  rw [dif_neg (show ¬(0 : Fin S16x512.rank) ∈ dot_S16x512_S512x256_S16x256_1_0_0_1_n_n.lhsBatch by decide),
    dif_pos (show (0 : Fin S16x512.rank) ∈ dot_S16x512_S512x256_S16x256_1_0_0_1_n_n.lhsNonContracting by decide)]
  rfl

theorem lhs_dot_S16x512_S512x256_S16x256_1_0_0_1_n_n_1 (i : S16x256.Idx)
    (q : dot_S16x512_S512x256_S16x256_1_0_0_1_n_n.contr.Idx) :
    (dot_S16x512_S512x256_S16x256_1_0_0_1_n_n.lhsIdx i q 1).val = (q ⟨0, by decide⟩).val :=
  dot_S16x512_S512x256_S16x256_1_0_0_1_n_n.lhsIdx_val_of_single rfl i q

theorem rhs_dot_S16x512_S512x256_S16x256_1_0_0_1_n_n_0 (i : S16x256.Idx)
    (q : dot_S16x512_S512x256_S16x256_1_0_0_1_n_n.contr.Idx) :
    (dot_S16x512_S512x256_S16x256_1_0_0_1_n_n.rhsIdx i q 0).val = (q ⟨0, by decide⟩).val :=
  dot_S16x512_S512x256_S16x256_1_0_0_1_n_n.rhsIdx_val_of_single rfl i q

theorem rhs_dot_S16x512_S512x256_S16x256_1_0_0_1_n_n_1 (i : S16x256.Idx)
    (q : dot_S16x512_S512x256_S16x256_1_0_0_1_n_n.contr.Idx) :
    (dot_S16x512_S512x256_S16x256_1_0_0_1_n_n.rhsIdx i q 1).val = (i 1).val := by
  unfold DotDims.rhsIdx
  rw [dif_neg (show ¬(1 : Fin S512x256.rank) ∈ dot_S16x512_S512x256_S16x256_1_0_0_1_n_n.rhsBatch by decide),
    dif_pos (show (1 : Fin S512x256.rank) ∈ dot_S16x512_S512x256_S16x256_1_0_0_1_n_n.rhsNonContracting by decide)]
  rfl

/-- The first product into a zero accumulator, at row r and column n: the sum over the 512 features of the left
    operand at (r, k) times the right operand at (k, n). -/
theorem hidden_dot_apply {φ₁ φ₂ : FTy} (A : FVec Ideal S16x512 φ₁) (B : FVec Ideal S512x256 φ₂) (r : Fin 16) (n : Fin 256) :
    matmul dot_S16x512_S512x256_S16x256_1_0_0_1_n_n none A B (constant (F := Ideal) S16x256 .f32 0x00000000#32) (ix2 r n)
      = ∑ k : Fin 512, A (ix2 r k) * B (ix2 k n) := by
  simp only [matmul]
  rw [Ideal.matmul_constant_zero_apply,
    ← Equiv.sum_comp (contrEquiv1 dot_S16x512_S512x256_S16x256_1_0_0_1_n_n 512 rfl rfl).symm]
  refine Finset.sum_congr rfl fun k _ => ?_
  have hk := contrEquiv1_symm_val dot_S16x512_S512x256_S16x256_1_0_0_1_n_n 512 rfl rfl k
  have el : dot_S16x512_S512x256_S16x256_1_0_0_1_n_n.lhsIdx (ix2 r n)
      ((contrEquiv1 dot_S16x512_S512x256_S16x256_1_0_0_1_n_n 512 rfl rfl).symm k) = ix2 r k :=
    funext fun a => Fin.ext (by
      match a with
      | ⟨0, _⟩ => exact lhs_dot_S16x512_S512x256_S16x256_1_0_0_1_n_n_0 _ _
      | ⟨1, _⟩ => exact (lhs_dot_S16x512_S512x256_S16x256_1_0_0_1_n_n_1 _ _).trans hk)
  have er : dot_S16x512_S512x256_S16x256_1_0_0_1_n_n.rhsIdx (ix2 r n)
      ((contrEquiv1 dot_S16x512_S512x256_S16x256_1_0_0_1_n_n 512 rfl rfl).symm k) = ix2 k n :=
    funext fun a => Fin.ext (by
      match a with
      | ⟨0, _⟩ => exact (rhs_dot_S16x512_S512x256_S16x256_1_0_0_1_n_n_0 _ _).trans hk
      | ⟨1, _⟩ => exact rhs_dot_S16x512_S512x256_S16x256_1_0_0_1_n_n_1 _ _)
  rw [el, er]

/-! ## The second product, [16,256] · [256,1]: its operand indices, coordinate by coordinate -/

theorem lhs_dot_S16x256_S256x1_S16x1_1_0_0_1_n_n_0 (i : S16x1.Idx)
    (q : dot_S16x256_S256x1_S16x1_1_0_0_1_n_n.contr.Idx) :
    (dot_S16x256_S256x1_S16x1_1_0_0_1_n_n.lhsIdx i q 0).val = (i 0).val := by
  unfold DotDims.lhsIdx
  rw [dif_neg (show ¬(0 : Fin S16x256.rank) ∈ dot_S16x256_S256x1_S16x1_1_0_0_1_n_n.lhsBatch by decide),
    dif_pos (show (0 : Fin S16x256.rank) ∈ dot_S16x256_S256x1_S16x1_1_0_0_1_n_n.lhsNonContracting by decide)]
  rfl

theorem lhs_dot_S16x256_S256x1_S16x1_1_0_0_1_n_n_1 (i : S16x1.Idx)
    (q : dot_S16x256_S256x1_S16x1_1_0_0_1_n_n.contr.Idx) :
    (dot_S16x256_S256x1_S16x1_1_0_0_1_n_n.lhsIdx i q 1).val = (q ⟨0, by decide⟩).val :=
  dot_S16x256_S256x1_S16x1_1_0_0_1_n_n.lhsIdx_val_of_single rfl i q

theorem rhs_dot_S16x256_S256x1_S16x1_1_0_0_1_n_n_0 (i : S16x1.Idx)
    (q : dot_S16x256_S256x1_S16x1_1_0_0_1_n_n.contr.Idx) :
    (dot_S16x256_S256x1_S16x1_1_0_0_1_n_n.rhsIdx i q 0).val = (q ⟨0, by decide⟩).val :=
  dot_S16x256_S256x1_S16x1_1_0_0_1_n_n.rhsIdx_val_of_single rfl i q

theorem rhs_dot_S16x256_S256x1_S16x1_1_0_0_1_n_n_1 (i : S16x1.Idx)
    (q : dot_S16x256_S256x1_S16x1_1_0_0_1_n_n.contr.Idx) :
    (dot_S16x256_S256x1_S16x1_1_0_0_1_n_n.rhsIdx i q 1).val = (i 1).val := by
  unfold DotDims.rhsIdx
  rw [dif_neg (show ¬(1 : Fin S256x1.rank) ∈ dot_S16x256_S256x1_S16x1_1_0_0_1_n_n.rhsBatch by decide),
    dif_pos (show (1 : Fin S256x1.rank) ∈ dot_S16x256_S256x1_S16x1_1_0_0_1_n_n.rhsNonContracting by decide)]
  rfl

/-- The second product into a zero accumulator, at row r of its one column: the sum over the 256 hidden units of the
    left operand at (r, n) times the right operand at (n, 0). -/
theorem out_dot_apply {φ₁ φ₂ : FTy} (A : FVec Ideal S16x256 φ₁) (B : FVec Ideal S256x1 φ₂) (r : Fin 16) :
    matmul dot_S16x256_S256x1_S16x1_1_0_0_1_n_n none A B (constant (F := Ideal) S16x1 .f32 0x00000000#32) (ix2 r (0 : Fin 1))
      = ∑ n : Fin 256, A (ix2 r n) * B (ix2 n (0 : Fin 1)) := by
  simp only [matmul]
  rw [Ideal.matmul_constant_zero_apply,
    ← Equiv.sum_comp (contrEquiv1 dot_S16x256_S256x1_S16x1_1_0_0_1_n_n 256 rfl rfl).symm]
  refine Finset.sum_congr rfl fun n _ => ?_
  have hn := contrEquiv1_symm_val dot_S16x256_S256x1_S16x1_1_0_0_1_n_n 256 rfl rfl n
  have el : dot_S16x256_S256x1_S16x1_1_0_0_1_n_n.lhsIdx (ix2 r (0 : Fin 1))
      ((contrEquiv1 dot_S16x256_S256x1_S16x1_1_0_0_1_n_n 256 rfl rfl).symm n) = ix2 r n :=
    funext fun a => Fin.ext (by
      match a with
      | ⟨0, _⟩ => exact lhs_dot_S16x256_S256x1_S16x1_1_0_0_1_n_n_0 _ _
      | ⟨1, _⟩ => exact (lhs_dot_S16x256_S256x1_S16x1_1_0_0_1_n_n_1 _ _).trans hn)
  have er : dot_S16x256_S256x1_S16x1_1_0_0_1_n_n.rhsIdx (ix2 r (0 : Fin 1))
      ((contrEquiv1 dot_S16x256_S256x1_S16x1_1_0_0_1_n_n 256 rfl rfl).symm n) = ix2 n (0 : Fin 1) :=
    funext fun a => Fin.ext (by
      match a with
      | ⟨0, _⟩ => exact (rhs_dot_S16x256_S256x1_S16x1_1_0_0_1_n_n_0 _ _).trans hn
      | ⟨1, _⟩ => exact rhs_dot_S16x256_S256x1_S16x1_1_0_0_1_n_n_1 _ _)
  rw [el, er]

/-! ## The layout steps at an index -/

/-- The features [16,1,512] viewed as [16,512]: entry (r, k) is the entry (r, 0, k), the two having the same
    row-major position r·512 + k. -/
theorem feat_cast_apply {α : Type} (x : S16x1x512.Idx → α) (h : S16x1x512.ShapeCasts S16x512) (r : Fin 16) (k : Fin 512) :
    shapeCast S16x512 x h (ix2 r k) = x (ix3 r (0 : Fin 1) k) :=
  shapeCast_apply x h _ _ (by
    rw [Shape.rowMajor_val_three, Shape.rowMajor_val_two]
    show (r.val * 1 + 0) * 512 + k.val = r.val * 512 + k.val
    rw [Nat.mul_one, Nat.add_zero])

/-- The bias [256] viewed as one row [1,256] and laid along each of the 16 rows: entry (r, n) is the bias at n. -/
theorem bias_rows_apply {α : Type} (b : S256.Idx → α) (h1 : S256.ShapeCasts S1x256) (hb : S1x256.Broadcasts S16x256)
    (r : Fin 16) (n : Fin 256) :
    broadcastTo S16x256 (shapeCast S1x256 b h1) hb (ix2 r n) = b (ix1 n) := by
  rw [broadcastTo_1b_ab_apply, shapeCast_a_1a_apply]

/-! ## The perceptron at a row -/

/-- Row r of the body's result is the specification's perceptron of that row's 512 features: the changes of float
    format are the identity on extended reals, each product into a zero accumulator is the plain sum over its
    contraction index, the bias row is read at the hidden unit, and the zero splat is the zero word. -/
theorem mlpPay_apply (v1 : Vec Ideal S16x1x512 .f32) (v4 : Vec Ideal S512x256 .f32) (v8 : Vec Ideal S256 .f32)
    (v15 : Vec Ideal S256x1 .f32) (r : Fin 16) :
    k0_pay2 (F := Ideal) v1 v4 v8 v15 (ix2 r 0)
      = Cert.Spec.mlp (fun k => v1 (ix3 r 0 k)) (fun k n => v4 (ix2 k n)) (fun n => v8 (ix1 n)) (fun n => v15 (ix2 n 0)) := by
  unfold k0_pay2 Cert.Spec.mlp
  refine congrArg Ideal.logistic ?_
  refine (out_dot_apply _ _ r).trans (Finset.sum_congr rfl fun n _ => ?_)
  show max (matmul dot_S16x512_S512x256_S16x256_1_0_0_1_n_n none _ _ (constant (F := Ideal) S16x256 .f32 0x00000000#32) (ix2 r n)
        + broadcastTo S16x256 (shapeCast S1x256 v8 shapeCasts_S256_S1x256) broadcasts_S1x256_S16x256 (ix2 r n))
      (Ideal.ofBits .f32 0x00000000#32)
      * shapeCast S256x1 v15 shapeCasts_S256x1_S256x1 (ix2 n (0 : Fin 1)) = _
  rw [hidden_dot_apply, bias_rows_apply, shapeCast_self v15]
  refine congrArg (fun s => max (s + v8 (ix1 n)) Cert.Spec.zeroW * v15 (ix2 n 0)) (Finset.sum_congr rfl fun k _ => ?_)
  show shapeCast S16x512 v1 shapeCasts_S16x1x512_S16x512 (ix2 r k) * shapeCast S512x256 v4 shapeCasts_S512x256_S512x256 (ix2 k n) = _
  rw [feat_cast_apply, shapeCast_self v4]

end Cert.KernelIdeal.Body

end
-- ==== Proof.KernelIdealFinal.lean ====
/-
  The kernel's result array is the specification's function of the argument arrays.

  The grid has eight points; point t stages rows 16 t … 16 t + 15 of the positions [128, 512, 3] and of their
  transpose [128, 3, 512] (which the host prefix makes from the same argument), the whole of the transposed weight
  arrays, and writes back rows 16 t … 16 t + 15 of the result [128, 1]. At a point the body's one store holds the
  perceptron of the scratch, and the scratch after the loop holds the features of the block's sixteen systems; read
  index by index, row r of point t's block is system 16 t + r of the specification. The eight blocks tile the result,
  so the whole array after the run is the specification.
-/
import proofs.«402878_j27891517620661_3_alg».proof.Proof.KernelIdealValue
import proofs.«402878_j27891517620661_3_alg».proof.Proof.BodyRow
import proofs.«402878_j27891517620661_3_alg».proof.Proof.BodyMlp
import Idealize.ShloMosaic.Lib.ValueLayout
import Idealize.ShloMosaic.Lib.StableHlo.Run

set_option maxRecDepth 16384

noncomputable section

namespace Cert.KernelIdeal.Final

open Cert.KernelIdeal Cert.KernelIdeal.Gen Cert.KernelIdeal.GenP Cert.KernelIdeal.ValueP
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The grid: which block of each array a point stages -/

/-- The printed index maps, decided over the eight points: the two position arrays and the result move with the
    point along their first axis; the weight arrays are staged whole. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0
    ∧ t.val < 8 :=
  (by decide +kernel : ∀ t : Fin grid0.N, _)

/-- Row r of point t's blocks is system 16 t + r. -/
def sysOf (t : Fin cfg0.N) (r : Fin 16) : Fin 128 :=
  ⟨t.val * 16 + r.val, by have h := (idx_facts t).2.2.2.2.2.2.2.2.2.2.2.2.2; have := r.isLt; omega⟩

/-- Each input window's block at a point, at its literal type. -/
abbrev xblk (c : Dev nD) (t : Fin cfg0.N) : Vec Ideal S16x512x3 .f32 := iblk m c 0 t
abbrev xtblk (c : Dev nD) (t : Fin cfg0.N) : Vec Ideal S16x3x512 .f32 := iblk m c 1 t
abbrev w1blk (c : Dev nD) (t : Fin cfg0.N) : Vec Ideal S512x256 .f32 := iblk m c 2 t
abbrev b1blk (c : Dev nD) (t : Fin cfg0.N) : Vec Ideal S256 .f32 := iblk m c 3 t
abbrev w2blk (c : Dev nD) (t : Fin cfg0.N) : Vec Ideal S256x1 .f32 := iblk m c 4 t

/-! ## The host prefix: three transposes of the arguments -/

theorem V_v0 (c : Dev nD) : (V m c main_v0 : S128x3x512.Idx → EReal)
    = transpose S128x3x512 [0, 2, 1] (m ((c : Thread nD τ).loc main_arg0)) transposes_S128x512x3_S128x3x512_0_2_1 := by
  dsimp only [V, hostOps0]; after_results

theorem V_v1 (c : Dev nD) : (V m c main_v1 : S512x256.Idx → EReal)
    = transpose S512x256 [1, 0] (m ((c : Thread nD τ).loc main_arg1)) transposes_S256x512_S512x256_1_0 := by
  dsimp only [V, hostOps0]; after_results

theorem V_v2 (c : Dev nD) : (V m c main_v2 : S256x1.Idx → EReal)
    = transpose S256x1 [1, 0] (m ((c : Thread nD τ).loc main_arg3)) transposes_S1x256_S256x1_1_0 := by
  dsimp only [V, hostOps0]; after_results

/-! ## The blocks read at an index -/

/-- The positions' block: row r is system 16 t + r. -/
theorem x_read (c : Dev nD) (t : Fin cfg0.N) (r : Fin 16) (p : Fin 512) (a : Fin 3) :
    xblk m c t (ix3 r p a) = m ((c : Thread nD τ).loc main_arg0) (ix3 (sysOf t r) p a) := by
  show V m c main_arg0 (((cfg0.win 0).blk t).view.emb (ix3 r p a)) = _
  rw [V_main_arg0]
  refine congrArg _ (funext fun b => Fin.ext ?_)
  obtain ⟨h0, h1, h2, -⟩ := idx_facts t
  match b with
  | ⟨0, _⟩ => show win0_0.index t (0 : Fin 3) * 16 + 1 * r.val = t.val * 16 + r.val; omega
  | ⟨1, _⟩ => show win0_0.index t (1 : Fin 3) * 512 + 1 * p.val = p.val; omega
  | ⟨2, _⟩ => show win0_0.index t (2 : Fin 3) * 3 + 1 * a.val = a.val; omega

/-- The transposed positions' block: row r is system 16 t + r, axis and particle exchanged. -/
theorem xt_read (c : Dev nD) (t : Fin cfg0.N) (r : Fin 16) (a : Fin 3) (p : Fin 512) :
    xtblk m c t (ix3 r a p) = m ((c : Thread nD τ).loc main_arg0) (ix3 (sysOf t r) p a) := by
  show V m c main_v0 (((cfg0.win 1).blk t).view.emb (ix3 r a p)) = _
  have hidx : ((cfg0.win 1).blk t).view.emb (ix3 r a p) = (ix3 (sysOf t r) a p : S128x3x512.Idx) := by
    refine funext fun b => Fin.ext ?_
    obtain ⟨-, -, -, h0, h1, h2, -⟩ := idx_facts t
    match b with
    | ⟨0, _⟩ => show win0_1.index t (0 : Fin 3) * 16 + 1 * r.val = t.val * 16 + r.val; omega
    | ⟨1, _⟩ => show win0_1.index t (1 : Fin 3) * 3 + 1 * a.val = a.val; omega
    | ⟨2, _⟩ => show win0_1.index t (2 : Fin 3) * 512 + 1 * p.val = p.val; omega
  rw [hidx, V_v0, transpose_ix3_021_apply]

/-- The first layer's weights arrive transposed. -/
theorem w1_read (c : Dev nD) (t : Fin cfg0.N) (k : Fin 512) (n : Fin 256) :
    w1blk m c t (ix2 k n) = m ((c : Thread nD τ).loc main_arg1) (ix2 n k) := by
  show V m c main_v1 (((cfg0.win 2).blk t).view.emb (ix2 k n)) = _
  have hidx : ((cfg0.win 2).blk t).view.emb (ix2 k n) = (ix2 k n : S512x256.Idx) := by
    refine funext fun b => Fin.ext ?_
    obtain ⟨-, -, -, -, -, -, h0, h1, -⟩ := idx_facts t
    match b with
    | ⟨0, _⟩ => show win0_2.index t (0 : Fin 2) * 512 + 1 * k.val = k.val; omega
    | ⟨1, _⟩ => show win0_2.index t (1 : Fin 2) * 256 + 1 * n.val = n.val; omega
  rw [hidx, V_v1, transpose_ix2_apply]

/-- The bias is staged whole. -/
theorem b1_read (c : Dev nD) (t : Fin cfg0.N) (n : Fin 256) :
    b1blk m c t (ix1 n) = m ((c : Thread nD τ).loc main_arg2) (ix1 n) := by
  show V m c main_arg2 (((cfg0.win 3).blk t).view.emb (ix1 n)) = _
  rw [V_main_arg2]
  refine congrArg _ (funext fun b => Fin.ext ?_)
  obtain ⟨-, -, -, -, -, -, -, -, h0, -⟩ := idx_facts t
  match b with
  | ⟨0, _⟩ => show win0_3.index t (0 : Fin 1) * 256 + 1 * n.val = n.val; omega

/-- The second layer's weights arrive transposed. -/
theorem w2_read (c : Dev nD) (t : Fin cfg0.N) (n : Fin 256) :
    w2blk m c t (ix2 n 0) = m ((c : Thread nD τ).loc main_arg3) (ix2 0 n) := by
  show V m c main_v2 (((cfg0.win 4).blk t).view.emb (ix2 n 0)) = _
  have hidx : ((cfg0.win 4).blk t).view.emb (ix2 n (0 : Fin 1)) = (ix2 n 0 : S256x1.Idx) := by
    refine funext fun b => Fin.ext ?_
    obtain ⟨-, -, -, -, -, -, -, -, -, h0, h1, -⟩ := idx_facts t
    match b with
    | ⟨0, _⟩ => show win0_4.index t (0 : Fin 2) * 256 + 1 * n.val = n.val; omega
    | ⟨1, _⟩ => show win0_4.index t (1 : Fin 2) * 1 + 1 * 0 = 0; omega
  rw [hidx, V_v2, transpose_ix2_apply]

/-- Row r of point t's result block is row 16 t + r of the result. -/
theorem out_idx (t : Fin cfg0.N) (r : Fin 16) :
    ((cfg0.win 5).blk t).view.emb (ix2 r (0 : Fin 1)) = (ix2 (sysOf t r) 0 : S128x1.Idx) := by
  refine funext fun b => Fin.ext ?_
  obtain ⟨-, -, -, -, -, -, -, -, -, -, -, h0, h1, -⟩ := idx_facts t
  match b with
  | ⟨0, _⟩ => show win0_5.index t (0 : Fin 2) * 16 + 1 * r.val = t.val * 16 + r.val; omega
  | ⟨1, _⟩ => show win0_5.index t (1 : Fin 2) * 1 + 1 * 0 = 0; omega

/-! ## The body's store, read -/

theorem hz2 : (![0, 0] : Fin 2 → Nat) = fun _ => 0 := funext fun a => by match a with | ⟨0, _⟩ => rfl | ⟨1, _⟩ => rfl

/-- What a point leaves in the result's staging buffer: the perceptron of the scratch as the loop leaves it. -/
theorem out_eq (c : Dev nD) (i : grid0.Coords) (arg1 : Memref sig .tc .vmem S16x512x3 .f32) (harg1 : arg1.IsWhole) (arg2 : Memref sig .tc .vmem S16x3x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S256x1 .f32) (harg5 : arg5.IsWhole) (arg6 : Memref sig .tc .vmem S16x1 .f32) (harg6 : arg6.IsWhole) (arg7 : Memref sig .tc .vmem S16x1x512 .f32) (harg7 : arg7.IsWhole)
    (x0 : Vec Ideal S16x512x3 .f32) (x1 : Vec Ideal S16x3x512 .f32) (x2 : Vec Ideal S512x256 .f32) (x3 : Vec Ideal S256 .f32) (x4 : Vec Ideal S256x1 .f32) :
    out0_A_5 (F := Ideal) c i arg1 harg1 arg2 harg2 arg3 harg3 arg4 harg4 arg5 harg5 arg6 harg6 arg7 harg7 x0 x1 x2 x3 x4 = k0_pay2 (Cert.KernelIdeal.Rows.scratchOf x0 x1) x2 x3 x4 := by
  unfold out0_A_5
  rw [View.read_writes_junk_eq_canon]
  exact View.canon_unit_zero hz2 _ _

/-- The scratch after the loop at (r, 0, k): feature k of the system in row r of the two position blocks. -/
theorem scratch_apply (x0 : Vec Ideal S16x512x3 .f32) (x1 : Vec Ideal S16x3x512 .f32) (r : Fin 16) (k : Fin 512) :
    Cert.KernelIdeal.Rows.scratchOf x0 x1 (ix3 r 0 k)
      = Cert.Spec.featRow (fun p a => x0 (ix3 r p a)) (fun a p => x1 (ix3 r a p)) k := by
  show Cert.KernelIdeal.Rows.rowOf x0 x1 (Cert.KernelIdeal.Rows.rowIx (ix3 r 0 k)) (Cert.KernelIdeal.Rows.colIx (ix3 r 0 k)) = _
  have hc : Cert.KernelIdeal.Rows.colIx (ix3 r (0 : Fin 1) k) = ix3 0 0 k :=
    funext fun b => by match b with | ⟨0, _⟩ => rfl | ⟨1, _⟩ => rfl | ⟨2, _⟩ => rfl
  rw [hc]
  unfold Cert.KernelIdeal.Rows.rowOf
  rw [Cert.KernelIdeal.Body.rowPay_apply]
  have e0 : k0_off1 (Cert.KernelIdeal.Rows.rowIx (ix3 r (0 : Fin 1) k)) = ![r.val, 0, 0] := k0_off1_eq _
  have e1 : k0_off2 (Cert.KernelIdeal.Rows.rowIx (ix3 r (0 : Fin 1) k)) = ![r.val, 0, 0] := k0_off2_eq _
  congr 1
  · funext p a
    show x0 ((Rect.unit (s := S16x512x3) (k0_off1 (Cert.KernelIdeal.Rows.rowIx (ix3 r (0 : Fin 1) k))) S1x512x3.size (k0_off1_inb (Cert.KernelIdeal.Rows.rowIx (ix3 r (0 : Fin 1) k)))).idx (ix3 0 p a)) = x0 (ix3 r p a)
    refine congrArg x0 (funext fun b => Fin.ext ?_)
    match b with
    | ⟨0, _⟩ => show k0_off1 (Cert.KernelIdeal.Rows.rowIx (ix3 r (0 : Fin 1) k)) 0 + 1 * 0 = r.val; rw [e0]; rfl
    | ⟨1, _⟩ => show k0_off1 (Cert.KernelIdeal.Rows.rowIx (ix3 r (0 : Fin 1) k)) 1 + 1 * p.val = p.val; rw [e0]; show 0 + 1 * p.val = p.val; omega
    | ⟨2, _⟩ => show k0_off1 (Cert.KernelIdeal.Rows.rowIx (ix3 r (0 : Fin 1) k)) 2 + 1 * a.val = a.val; rw [e0]; show 0 + 1 * a.val = a.val; omega
  · funext a p
    show x1 ((Rect.unit (s := S16x3x512) (k0_off2 (Cert.KernelIdeal.Rows.rowIx (ix3 r (0 : Fin 1) k))) S1x3x512.size (k0_off2_inb (Cert.KernelIdeal.Rows.rowIx (ix3 r (0 : Fin 1) k)))).idx (ix3 0 a p)) = x1 (ix3 r a p)
    refine congrArg x1 (funext fun b => Fin.ext ?_)
    match b with
    | ⟨0, _⟩ => show k0_off2 (Cert.KernelIdeal.Rows.rowIx (ix3 r (0 : Fin 1) k)) 0 + 1 * 0 = r.val; rw [e1]; rfl
    | ⟨1, _⟩ => show k0_off2 (Cert.KernelIdeal.Rows.rowIx (ix3 r (0 : Fin 1) k)) 1 + 1 * a.val = a.val; rw [e1]; show 0 + 1 * a.val = a.val; omega
    | ⟨2, _⟩ => show k0_off2 (Cert.KernelIdeal.Rows.rowIx (ix3 r (0 : Fin 1) k)) 2 + 1 * p.val = p.val; rw [e1]; show 0 + 1 * p.val = p.val; omega

/-! ## What a point writes back, the cover, the array after the run -/

/-- What point t writes back is block t of the specification's result. -/
theorem flushed_eq (c : Dev nD) (t : Fin cfg0.N) :
    (dats m 0 c).flushed 5 t
      = ((cfg0.win 5).blk t).view.read (Elt Ideal) (Cert.Spec.out (m ((c : Thread nD τ).loc main_arg0)) (m ((c : Thread nD τ).loc main_arg1)) (m ((c : Thread nD τ).loc main_arg2)) (m ((c : Thread nD τ).loc main_arg3))) := by
  rw [flushed5]
  unfold outsAt0
  rw [out_eq]
  funext j
  obtain ⟨r, q, rfl⟩ : ∃ (r : Fin 16) (q : Fin 1), j = ix2 r q := ⟨j 0, j 1, eq_ix2 j⟩
  obtain rfl : q = 0 := Subsingleton.elim _ _
  show k0_pay2 (Cert.KernelIdeal.Rows.scratchOf (xblk m c t) (xtblk m c t)) (w1blk m c t) (b1blk m c t) (w2blk m c t) (ix2 r 0)
    = Cert.Spec.out (m ((c : Thread nD τ).loc main_arg0)) (m ((c : Thread nD τ).loc main_arg1)) (m ((c : Thread nD τ).loc main_arg2)) (m ((c : Thread nD τ).loc main_arg3)) (((cfg0.win 5).blk t).view.emb (ix2 r 0))
  rw [Cert.KernelIdeal.Body.mlpPay_apply, out_idx]
  show _ = Cert.Spec.outAt (m ((c : Thread nD τ).loc main_arg0)) (m ((c : Thread nD τ).loc main_arg1)) (m ((c : Thread nD τ).loc main_arg2)) (m ((c : Thread nD τ).loc main_arg3)) (sysOf t r)
  unfold Cert.Spec.outAt
  congr 1
  · funext k
    rw [scratch_apply]
    congr 1
    · funext p a; exact x_read m c t r p a
    · funext a p; exact xt_read m c t r a p
  · funext k n; exact w1_read m c t k n
  · funext n; exact b1_read m c t n
  · funext n; exact w2_read m c t n

/-- An index of the result is in point t's block iff its row is among the block's sixteen. -/
theorem mem_blk (t : Fin cfg0.N) (i : S128x1.Idx) :
    i ∈ ((cfg0.win 5).blk t).view.set ↔ ∀ a : Fin 2, win0_5.index t a * S16x1.size a ≤ (i a).val ∧ (i a).val < win0_5.index t a * S16x1.size a + S16x1.size a := by
  show i ∈ ((View.whole main_v3).slice (win0_5.rect t)).set ↔ _
  rw [View.set_slice_whole, Rect.mem_set_unit]
  exact Iff.rfl

/-- Every row of the result is in the block of the point that is its number divided by sixteen. -/
theorem cover (i : S128x1.Idx) : ∃ t : Fin cfg0.N, (cfg0.win 5).flush t = true ∧ i ∈ ((cfg0.win 5).blk t).view.set := by
  have hi0 : (i 0).val < 128 := (i 0).isLt
  have hi1 : (i 1).val < 1 := (i 1).isLt
  have ht : (i 0).val / 16 < cfg0.N := by show (i 0).val / 16 < 8; omega
  refine ⟨⟨(i 0).val / 16, ht⟩, flush0_5 _, ?_⟩
  rw [mem_blk]
  obtain ⟨-, -, -, -, -, -, -, -, -, -, -, h0, h1, -⟩ := idx_facts ⟨(i 0).val / 16, ht⟩
  intro a
  match a with
  | ⟨0, _⟩ =>
    show win0_5.index ⟨(i 0).val / 16, ht⟩ (0 : Fin 2) * 16 ≤ (i 0).val ∧ (i 0).val < win0_5.index ⟨(i 0).val / 16, ht⟩ (0 : Fin 2) * 16 + 16
    rw [h0]; show (i 0).val / 16 * 16 ≤ (i 0).val ∧ (i 0).val < (i 0).val / 16 * 16 + 16; omega
  | ⟨1, _⟩ =>
    show win0_5.index ⟨(i 0).val / 16, ht⟩ (1 : Fin 2) * 1 ≤ (i 1).val ∧ (i 1).val < win0_5.index ⟨(i 0).val / 16, ht⟩ (1 : Fin 2) * 1 + 1
    rw [h1]; omega

/-- The result array after the run. -/
theorem final (c : Dev nD) :
    (dats m 0 c).arrAt 5 cfg0.N = Cert.Spec.out (m ((c : Thread nD τ).loc main_arg0)) (m ((c : Thread nD τ).loc main_arg1)) (m ((c : Thread nD τ).loc main_arg2)) (m ((c : Thread nD τ).loc main_arg3)) :=
  (dats m 0 c).arrAt_eq_of_cover 5 _ (fun t _ => flushed_eq m c t) cover

/-- The kernel's run: it terminates with the result array at the specification and the arguments unchanged. -/
theorem run : θ_run defs (onTc (τ := τ) (main (F := Ideal))) ⟨m, fun _ => 0, ρ⟩ fun r => ∀ c : Dev nD,
      r.2.mem ((c : Thread nD τ).loc main_v3) = Cert.Spec.out (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Final

end
-- ==== Proof.RefSide.lean ====
import proofs.«402878_j27891517620661_3_alg».proof.Proof.Spec
import proofs.«402878_j27891517620661_3_alg».proof.Proof.Gen.ReferenceIdeal.Read
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.ReferenceIdeal.RefSide

open Cert.ReferenceIdeal

/-- The displacement array at (g, i, j, c): the second particle's coordinate minus the first's. -/
theorem disp_at (x0 : (⟨S128x512x3, .f32⟩ : BufTy).Contents (Elt Ideal)) (g : Fin 128) (i j : Fin 512) (c : Fin 3) :
    Read.val_main_v4 (F := Ideal) x0 (ix4 g i j c) = x0 (ix3 g j c) - x0 (ix3 g i c) := by
  rw [Read.val_main_v4_apply, Read.val_main_v2_apply, Read.val_main_v3_apply, Read.val_main_v0_apply,
    Read.val_main_v1_apply]
  have e0 : Read.idx_main_v0 (Read.idx_main_v2 (ix4 g i j c)) = ix3 g j c :=
    funext fun a => by match a with | ⟨0, _⟩ => rfl | ⟨1, _⟩ => rfl | ⟨2, _⟩ => rfl
  have e1 : Read.idx_main_v1 (Read.idx_main_v3 (ix4 g i j c)) = ix3 g i c :=
    funext fun a => by match a with | ⟨0, _⟩ => rfl | ⟨1, _⟩ => rfl | ⟨2, _⟩ => rfl
  rw [e0, e1]
  rfl

/-- The squared wrapped displacement at (g, i, j, c). -/
theorem wrapSq_at (x0 : (⟨S128x512x3, .f32⟩ : BufTy).Contents (Elt Ideal)) (g : Fin 128) (i j : Fin 512) (c : Fin 3) :
    Read.val_main_v11 (F := Ideal) x0 (ix4 g i j c) = Cert.Spec.wrapSq (x0 (ix3 g i c)) (x0 (ix3 g j c)) := by
  rw [Read.val_main_v11_apply, Read.val_main_v10_apply, Read.val_main_v9_apply, Read.val_main_v7_apply,
    Read.val_main_v6_apply, Read.val_main_v8_apply, Read.val_main_v5_apply, disp_at]
  rfl

/-- The squared minimum-image distance at (g, i, j): the reduction's zero start adds nothing. -/
theorem dist2_at (x0 : (⟨S128x512x3, .f32⟩ : BufTy).Contents (Elt Ideal)) (g : Fin 128) (i j : Fin 512) :
    Read.val_main_v12 (F := Ideal) x0 (ix3 g i j)
      = Cert.Spec.dist2 (fun c => x0 (ix3 g i c)) (fun c => x0 (ix3 g j c)) := by
  rw [Read.val_main_v12_apply, Read.val_main_cst_1_apply, Ideal.ofBits_def, Ideal.ofBits_zero_f32, zero_add]
  unfold Cert.Spec.dist2
  refine Finset.sum_congr rfl fun c _ => ?_
  have e : Read.idx_main_v12 (ix3 g i j) c = ix4 g i j c :=
    funext fun a => by match a with | ⟨0, _⟩ => rfl | ⟨1, _⟩ => rfl | ⟨2, _⟩ => rfl | ⟨3, _⟩ => rfl
  rw [e, wrapSq_at]

/-- Two 32-bit words of numbers below 512 are equal exactly when the numbers are. -/
theorem ofNat_beq (i j : Fin 512) : (BitVec.ofNat 32 i.val == BitVec.ofNat 32 j.val) = decide (i = j) := by
  by_cases h : i = j
  · subst h; simp
  · have hne : BitVec.ofNat 32 i.val ≠ BitVec.ofNat 32 j.val := by
      intro e
      have e' := congrArg BitVec.toNat e
      simp only [BitVec.toNat_ofNat] at e'
      have hi := i.isLt
      have hj := j.isLt
      exact h (Fin.ext (by omega))
    simp [h, hne]

/-- The off-diagonal bit at (g, i, j): the complement of the comparison of the row number (plus the zero word) with the
    column number. -/
theorem offDiag_at (g : Fin 128) (i j : Fin 512) :
    Read.val_main_v39 (F := Ideal) (ix3 g i j) = Cert.Spec.offDiag i j := by
  rw [Read.val_main_v39_apply, Read.val_main_v38_apply, Read.val_main_v37_apply, Read.val_main_v34_apply,
    Read.val_main_v33_apply, Read.val_main_v30_apply, Read.val_main_v31_apply, Read.val_main_v32_apply,
    Read.val_main_c_apply]
  show ~~~(IntOp.cmpi .eq (IntOp.addi (BitVec.ofNat 32 i.val) 0#32) (BitVec.ofNat 32 j.val)) = _
  unfold IntOp.cmpi IntOp.addi Cert.Spec.offDiag
  rw [BitVec.add_zero, ofNat_beq]
  by_cases h : i = j
  · rw [if_pos h, decide_eq_true h]
    show ~~~BitVec.ofBool true = 0#1
    decide
  · rw [if_neg h, decide_eq_false h]
    show ~~~BitVec.ofBool false = 1#1
    decide

/-- The distance the envelope and the cutoff read, at (g, i, j). -/
theorem safeDist_at (x0 : (⟨S128x512x3, .f32⟩ : BufTy).Contents (Elt Ideal)) (g : Fin 128) (i j : Fin 512) :
    Read.val_main_v16 (F := Ideal) x0 (ix3 g i j)
      = Cert.Spec.safeDist (Cert.Spec.dist2 (fun c => x0 (ix3 g i c)) (fun c => x0 (ix3 g j c))) := by
  rw [Read.val_main_v16_apply, Read.val_main_v15_apply, Read.val_main_v14_apply, Read.val_main_v13_apply,
    Read.val_main_call1_v1_apply, dist2_at]
  rfl

/-- The envelope at (g, i, j): the reference multiplies the exponential by one half first, the specification the
    cosine factor by one half first; the two agree by associativity of the product. -/
theorem env_at (x0 : (⟨S128x512x3, .f32⟩ : BufTy).Contents (Elt Ideal)) (g : Fin 128) (i j : Fin 512) :
    Read.val_main_v29 (F := Ideal) x0 (ix3 g i j)
      = Ideal.exp (Cert.Spec.negOneW * Cert.Spec.dist2 (fun c => x0 (ix3 g i c)) (fun c => x0 (ix3 g j c)))
        * (Cert.Spec.halfW * (Ideal.cos (Ideal.div (Cert.Spec.piW
            * Cert.Spec.safeDist (Cert.Spec.dist2 (fun c => x0 (ix3 g i c)) (fun c => x0 (ix3 g j c)))) Cert.Spec.cutW)
          + Cert.Spec.oneW)) := by
  rw [Read.val_main_v29_apply, Read.val_main_v21_apply, Read.val_main_v28_apply, Read.val_main_v19_apply,
    Read.val_main_v18_apply, Read.val_main_v17_apply, Read.val_main_v20_apply, Read.val_main_v26_apply,
    Read.val_main_v25_apply, Read.val_main_v23_apply, Read.val_main_v22_apply, Read.val_main_v24_apply,
    Read.val_main_v27_apply, safeDist_at, dist2_at]
  exact mul_assoc _ _ _

/-- One pair's masked term at (g, i, j). -/
theorem pair_at (x0 : (⟨S128x512x3, .f32⟩ : BufTy).Contents (Elt Ideal)) (g : Fin 128) (i j : Fin 512) :
    Read.val_main_v44 (F := Ideal) x0 (ix3 g i j)
      = Cert.Spec.pairTerm (Cert.Spec.offDiag i j)
          (Cert.Spec.dist2 (fun c => x0 (ix3 g i c)) (fun c => x0 (ix3 g j c))) := by
  rw [Read.val_main_v44_apply, Read.val_main_v43_apply, Read.val_main_v40_apply, Read.val_main_v42_apply,
    Read.val_main_v36_apply, Read.val_main_v35_apply, Read.val_main_v41_apply, Read.val_main_call2_v1_apply,
    offDiag_at, env_at, safeDist_at, dist2_at]
  rfl

/-- A particle's feature: the reduction's zero start adds nothing. -/
theorem feat_at (x0 : (⟨S128x512x3, .f32⟩ : BufTy).Contents (Elt Ideal)) (g : Fin 128) (i : Fin 512) :
    Read.val_main_v45 (F := Ideal) x0 (ix2 g i)
      = Cert.Spec.featRow (fun p c => x0 (ix3 g p c)) (fun c p => x0 (ix3 g p c)) i := by
  rw [Read.val_main_v45_apply, Read.val_main_cst_12_apply, Ideal.ofBits_def, Ideal.ofBits_zero_f32, zero_add]
  unfold Cert.Spec.featRow
  refine Finset.sum_congr rfl fun j _ => ?_
  have e : Read.idx_main_v45 (ix2 g i) j = ix3 g i j :=
    funext fun a => by match a with | ⟨0, _⟩ => rfl | ⟨1, _⟩ => rfl | ⟨2, _⟩ => rfl
  rw [e, pair_at]

/-- The word 0x3F800000 denotes the extended real one. -/
theorem oneW_eq : Cert.Spec.oneW = 1 := by
  show Ideal.ofBits .f32 0x3F800000#32 = 1
  simp [Ideal.ofBits, Ideal.ieee, -EReal.coe_mul]; norm_num

/-- A hidden unit of system g: the features contracted with a row of the first weight matrix (read through its
    transpose), plus the bias, then the maximum with zero. -/
theorem hidden_at (x0 : (⟨S128x512x3, .f32⟩ : BufTy).Contents (Elt Ideal)) (x1 : (⟨S256x512, .f32⟩ : BufTy).Contents (Elt Ideal))
    (x2 : (⟨S256, .f32⟩ : BufTy).Contents (Elt Ideal)) (g : Fin 128) (n : Fin 256) :
    Read.val_main_v51 (F := Ideal) x0 x1 x2 (ix2 g n)
      = max ((∑ k : Fin 512, Cert.Spec.featRow (fun p c => x0 (ix3 g p c)) (fun c p => x0 (ix3 g p c)) k * x1 (ix2 n k))
          + x2 (ix1 n)) Cert.Spec.zeroW := by
  rw [Read.val_main_v51_apply, Read.val_main_v50_apply, Read.val_main_v47_apply, Read.val_main_v49_apply,
    Read.val_main_v48_apply, Read.val_main_call3_v0_apply]
  have eb : Read.idx_main_v48 (Read.idx_main_v49 (ix2 g n)) = ix1 n :=
    funext fun a => by match a with | ⟨0, _⟩ => rfl
  have es : ∀ k : Fin 512,
      Read.val_main_v45 (F := Ideal) x0 (Read.lidx_main_v47 (ix2 g n) k)
          * Read.val_main_v46 (F := Ideal) x1 (Read.ridx_main_v47 (ix2 g n) k)
        = Cert.Spec.featRow (fun p c => x0 (ix3 g p c)) (fun c p => x0 (ix3 g p c)) k * x1 (ix2 n k) := by
    intro k
    have el : Read.lidx_main_v47 (ix2 g n) k = ix2 g k :=
      funext fun a => by match a with | ⟨0, _⟩ => rfl | ⟨1, _⟩ => rfl
    have er : Read.idx_main_v46 (Read.ridx_main_v47 (ix2 g n) k) = ix2 n k :=
      funext fun a => by match a with | ⟨0, _⟩ => rfl | ⟨1, _⟩ => rfl
    rw [Read.val_main_v46_apply, el, er, feat_at]
  rw [eb, Finset.sum_congr rfl fun k _ => es k]
  rfl

theorem ref_apply (x0 : (⟨S128x512x3, .f32⟩ : BufTy).Contents (Elt Ideal)) (x1 : (⟨S256x512, .f32⟩ : BufTy).Contents (Elt Ideal))
    (x2 : (⟨S256, .f32⟩ : BufTy).Contents (Elt Ideal)) (x3 : (⟨S1x256, .f32⟩ : BufTy).Contents (Elt Ideal)) (g : Fin 128) :
    Cert.ReferenceIdeal.Read.val_main_v59 (F := Ideal) x0 x1 x2 x3 (ix2 g 0) = Cert.Spec.outAt x0 x1 x2 x3 g := by
  rw [Read.val_main_v59_apply, Read.val_main_v58_apply, Read.val_main_v57_apply, Read.val_main_v56_apply,
    Read.val_main_v55_apply, Read.val_main_v54_apply, Read.val_main_v53_apply]
  have es : ∀ n : Fin 256,
      Read.val_main_v51 (F := Ideal) x0 x1 x2 (Read.lidx_main_v53 (ix2 g 0) n)
          * Read.val_main_v52 (F := Ideal) x3 (Read.ridx_main_v53 (ix2 g 0) n)
        = max ((∑ k : Fin 512, Cert.Spec.featRow (fun p c => x0 (ix3 g p c)) (fun c p => x0 (ix3 g p c)) k * x1 (ix2 n k))
            + x2 (ix1 n)) Cert.Spec.zeroW * x3 (ix2 0 n) := by
    intro n
    have el : Read.lidx_main_v53 (ix2 g 0) n = ix2 g n :=
      funext fun a => by match a with | ⟨0, _⟩ => rfl | ⟨1, _⟩ => rfl
    have er : Read.idx_main_v52 (Read.ridx_main_v53 (ix2 g 0) n) = ix2 0 n :=
      funext fun a => by match a with | ⟨0, _⟩ => rfl | ⟨1, _⟩ => rfl
    rw [Read.val_main_v52_apply, el, er, hidden_at]
  rw [Finset.sum_congr rfl fun n _ => es n]
  show Ideal.div Cert.Spec.oneW (Cert.Spec.oneW + Ideal.exp (-(∑ n : Fin 256,
      max ((∑ k : Fin 512, Cert.Spec.featRow (fun p c => x0 (ix3 g p c)) (fun c p => x0 (ix3 g p c)) k * x1 (ix2 n k))
        + x2 (ix1 n)) Cert.Spec.zeroW * x3 (ix2 0 n)))) = _
  rw [oneW_eq]
  rfl

theorem ref_eq (x0 : (⟨S128x512x3, .f32⟩ : BufTy).Contents (Elt Ideal)) (x1 : (⟨S256x512, .f32⟩ : BufTy).Contents (Elt Ideal))
    (x2 : (⟨S256, .f32⟩ : BufTy).Contents (Elt Ideal)) (x3 : (⟨S1x256, .f32⟩ : BufTy).Contents (Elt Ideal)) :
    Cert.ReferenceIdeal.Read.val_main_v59 (F := Ideal) x0 x1 x2 x3 = Cert.Spec.out x0 x1 x2 x3 := by
  funext y
  obtain ⟨g, q, rfl⟩ : ∃ (g : Fin 128) (q : Fin 1), y = ix2 g q := ⟨y 0, y 1, eq_ix2 y⟩
  obtain rfl : q = 0 := Subsingleton.elim _ _
  exact ref_apply x0 x1 x2 x3 g

end Cert.ReferenceIdeal.RefSide

end
-- ==== Proof.lean ====
/-
  A Pallas kernel that scores 128 systems of 512 particles in a periodic box equals its jnp reference on the
  extended reals.

  Both programs compute, for each system, the minimum-image squared distance d2 of every pair of particles, the
  envelope exp(-d2) · (1/2 · (cos(π d / 2.5) + 1)) of its root d kept only inside the cutoff, off the diagonal and
  where d2 is positive, the sum of that over the second particle (512 features), and the logistic of a perceptron
  with one hidden layer of 256 units on those features (Spec.lean states this function over plain coordinates).
  The kernel walks a grid of eight blocks of sixteen systems; inside a block a loop of sixteen trips fills a scratch
  with one system's features per trip, and the perceptron is then applied to the whole scratch. The reference builds
  the [128, 512, 512, 3] array of displacements at once. The two differ only in how a product of three factors and
  a sum of three terms are associated, in the reference's reductions starting from an explicit zero, in how the
  diagonal mask is spelt, and in the logistic, which the reference writes as 1 / (1 + exp(-z)): all equal on every
  extended real, so the precondition is never opened.

  The kernel's side: the scratch after the loop as one function of the input blocks (KernelIdealRows.lean), the
  body's run over that function (KernelIdealRunA.lean and the two modules over it), the payloads read index by
  index (BodyRow.lean, BodyMlp.lean), and the result array as the specification (KernelIdealFinal.lean). The
  reference's side: its run read stage by stage as the specification (RefSide.lean). No rewrite was applied when the
  kernel was idealized, so that conjunct is trivial.
-/
import proofs.«402878_j27891517620661_3_alg».proof.Defs
import proofs.«402878_j27891517620661_3_alg».proof.Proof.Gen.Kernel
import proofs.«402878_j27891517620661_3_alg».proof.Proof.Gen.KernelIdeal
import proofs.«402878_j27891517620661_3_alg».proof.Proof.Gen.ReferenceIdeal
import proofs.«402878_j27891517620661_3_alg».proof.Proof.Gen.Pre_finite_inputs
import proofs.«402878_j27891517620661_3_alg».proof.Proof.KernelFrame
import proofs.«402878_j27891517620661_3_alg».proof.Proof.KernelIdealFinal
import proofs.«402878_j27891517620661_3_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.GenP.frame m ρ

/-- So does the kernel read on the extended reals. -/
theorem frame_kernelIdeal : Cert.frame_KernelIdeal := fun m ρ _ => Cert.KernelIdeal.GenP.frame m ρ

/-- The reference is a host program: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the specification's function of the (agreeing) argument arrays. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq, Cert.ReferenceIdeal.RefSide.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
